-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S512x128 : Shape := ⟨2, ![512, 128]⟩
abbrev S400000 : Shape := ⟨1, ![400000]⟩
abbrev S128 : Shape := ⟨1, ![128]⟩
abbrev S128x128 : Shape := ⟨2, ![128, 128]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S400000 : S_.BroadcastsInDim S400000 (![] : Fin 0 → Fin S400000.rank)
  reducesTo_S400000_S_d0 : S400000.ReducesTo [0] S_

variable [Facts]

def fn_part2 {F : FTy → Type} [FloatOps F] (main_arg4 : IVec S400000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S400000 32 := broadcastInDim S400000 ![] bcast_S_S400000 main_c_14
  let main_v40 : IVec S400000 1 := cmpi .sge main_arg4 main_v39
  let main_c_15 : IVec S_ 32 := constantI S_ 32 512#32
  let main_v41 : IVec S400000 32 := broadcastInDim S400000 ![] bcast_S_S400000 main_c_15
  let main_v42 : IVec S400000 1 := cmpi .slt main_arg4 main_v41
  let main_v43 : IVec S400000 1 := andi main_v40 main_v42
  let main_c_16 : IVec S_ 1 := constantI S_ 1 1#1
  let main_v44 : IVec S_ 1 := (fun x v => Host.reduce IntOp.andi x v reducesTo_S400000_S_d0 h_S_) main_v43 main_c_16
  let main_v45 : IVec S_ 1 := andi main_v38 main_v44
  main_v45

def fn_part1 {F : FTy → Type} [FloatOps F] (main_arg4 : IVec S400000 32) (main_arg5 : FVec F S512x128 .f32) (main_arg6 : FVec F S128 .f32) (main_arg7 : FVec F S128x128 .f32) (main_arg8 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg8 main_v33

def fn {F : FTy → Type} [FloatOps F] (main_arg0 : FVec F S400000x128 .f32) (main_arg1 : FVec F S400000x128 .f32) (main_arg2 : FVec F S400000x128 .f32) (main_arg3 : FVec F S512x128 .f32) (main_arg4 : IVec S400000 32) (main_arg5 : FVec F S512x128 .f32) (main_arg6 : FVec F S128 .f32) (main_arg7 : FVec F S128x128 .f32) (main_arg8 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_v13 main_v16
-- ==== Kernel.lean ====
abbrev S400000x128 : Shape := ⟨2, ![400000, 128]⟩
abbrev S512x128 : Shape := ⟨2, ![512, 128]⟩
abbrev S400000 : Shape := ⟨1, ![400000]⟩
abbrev S128 : Shape := ⟨1, ![128]⟩
abbrev S128x128 : Shape := ⟨2, ![128, 128]⟩
abbrev S_ : Shape := ⟨0, ![]⟩
abbrev S402432x128 : Shape := ⟨2, ![402432, 128]⟩
abbrev S402432 : Shape := ⟨1, ![402432]⟩
abbrev S402432x1 : Shape := ⟨2, ![402432, 1]⟩
abbrev S1x128 : Shape := ⟨2, ![1, 128]⟩
abbrev S3072x128 : Shape := ⟨2, ![3072, 128]⟩
abbrev S3072x1 : Shape := ⟨2, ![3072, 1]⟩
abbrev S3072x512 : Shape := ⟨2, ![3072, 512]⟩

abbrev nBuf : Space → Nat
  | .hbm => 35
  | .vmem => 17
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S512x128, .f32⟩
  | .hbm, ⟨4, _⟩ => ⟨S400000, .i32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S_, .f32⟩
  | .hbm, ⟨11, _⟩ => ⟨S402432x128, .f32⟩
  | .hbm, ⟨12, _⟩ => ⟨S_, .i32⟩
  | .hbm, ⟨13, _⟩ => ⟨S_, .f32⟩
  | .hbm, ⟨14, _⟩ => ⟨S402432x128, .f32⟩
  | .hbm, ⟨15, _⟩ => ⟨S_, .i32⟩
  | .hbm, ⟨16, _⟩ => ⟨S_, .f32⟩
  | .hbm, ⟨17, _⟩ => ⟨S402432x128, .f32⟩
  | .hbm, ⟨18, _⟩ => ⟨S_, .i32⟩
  | .hbm, ⟨19, _⟩ => ⟨S_, .i32⟩
  | .hbm, ⟨20, _⟩ => ⟨S402432, .i32⟩
  | .hbm, ⟨21, _⟩ => ⟨S402432x1, .i32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .bf16⟩
  | .hbm, ⟨27, _⟩ => ⟨S128x128, .bf16⟩
  | .hbm, ⟨28, _⟩ => ⟨S128x128, .bf16⟩
  | .hbm, ⟨29, _⟩ => ⟨S128x128, .bf16⟩
  | .hbm, ⟨30, _⟩ => ⟨S512x128, .f32⟩
  | .hbm, ⟨31, _⟩ => ⟨S1x128, .f32⟩
  | .hbm, ⟨32, _⟩ => ⟨S1x128, .f32⟩
  | .hbm, ⟨33, _⟩ => ⟨S402432x128, .f32⟩
  | .hbm, ⟨34, _⟩ => ⟨S400000x128, .f32⟩
  | .local _ .vmem, ⟨0, _⟩ => ⟨S3072x128, .f32⟩
  | .local _ .vmem, ⟨1, _⟩ => ⟨S3072x128, .f32⟩
  | .local _ .vmem, ⟨2, _⟩ => ⟨S3072x128, .f32⟩
  | .local _ .vmem, ⟨3, _⟩ => ⟨S3072x128, .f32⟩
  | .local _ .vmem, ⟨4, _⟩ => ⟨S3072x128, .f32⟩
  | .local _ .vmem, ⟨5, _⟩ => ⟨S3072x128, .f32⟩
  | .local _ .vmem, ⟨6, _⟩ => ⟨S3072x1, .i32⟩
  | .local _ .vmem, ⟨7, _⟩ => ⟨S3072x1, .i32⟩
  | .local _ .vmem, ⟨8, _⟩ => ⟨S512x128, .f32⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S1x128, .f32⟩
  | .local _ .vmem, ⟨14, _⟩ => ⟨S1x128, .f32⟩
  | .local _ .vmem, ⟨15, _⟩ => ⟨S3072x128, .f32⟩
  | .local _ .vmem, ⟨16, _⟩ => ⟨S3072x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_c_2 : Ref sig .tc := ⟨.hbm, 18, rfl⟩
abbrev main_call3_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![131], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3072x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  pads_S400000x128_S402432x128_024320_000 : S400000x128.Pads (![0, 0] : Fin 2 → Nat) ![2432, 0] ![0, 0] S402432x128
  h_S_ : 0 < S_.numel
  pads_S400000_S402432_024320 : S400000.Pads (![0] : Fin 1 → Nat) ![2432] ![0] S402432
  shapeCasts_S402432_S402432x1 : S402432.ShapeCasts S402432x1
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  bitsLt_bf16_f32 : FTy.bits .bf16 < FTy.bits .f32
  shapeCasts_S128_S1x128 : S128.ShapeCasts S1x128
  inb_S3072x1_S3072x1_0_0 : ∀ a, (![0, 0] : Fin 2 → Nat) a + S3072x1.size a ≤ S3072x1.size a
  h_S3072x1 : 0 < S3072x1.numel
  shapeCasts_S3072x1_S3072x1 : S3072x1.ShapeCasts S3072x1
  iota_S3072x512_d1_w32 : S3072x512.Iotas .tc 32 [1]
  broadcasts_S3072x1_S3072x512 : S3072x1.Broadcasts S3072x512
  natLt_1_32 : 1 < 32
  inb_S3072x128_S3072x128_0_0 : ∀ a, (![0, 0] : Fin 2 → Nat) a + S3072x128.size a ≤ S3072x128.size a
  h_S3072x128 : 0 < S3072x128.numel
  shapeCasts_S3072x128_S3072x128 : S3072x128.ShapeCasts S3072x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3072x128 : S1x128.Broadcasts S3072x128
  slices_S402432x128_S400000x128_0_0 : S402432x128.Slices ![0, 0] S400000x128
  dot_S512x128_S128x128_S512x128_1_0_0_1_n_n_wf : DotDims.WF S512x128 S128x128 S512x128 [1] [0] [0] [1] [] []
  dot_S3072x128_S128x128_S3072x128_1_0_0_1_n_n_wf : DotDims.WF S3072x128 S128x128 S3072x128 [1] [0] [0] [1] [] []
  dot_S3072x512_S512x128_S3072x128_1_0_0_1_n_n_wf : DotDims.WF S3072x512 S512x128 S3072x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x128.size a ≤ S402432x128.size a
  hwx0_0 : ∀ i : grid0.Coords, EltTy.bits .f32 = 32 ∨ (Rect.block (s := S402432x128) S3072x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x128.size a ≤ S402432x128.size a
  hwx0_1 : ∀ i : grid0.Coords, EltTy.bits .f32 = 32 ∨ (Rect.block (s := S402432x128) S3072x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x128.size a ≤ S402432x128.size a
  hwx0_2 : ∀ i : grid0.Coords, EltTy.bits .f32 = 32 ∨ (Rect.block (s := S402432x128) S3072x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x1.size a ≤ S402432x1.size a
  hwx0_3 : ∀ i : grid0.Coords, EltTy.bits .i32 = 32 ∨ (Rect.block (s := S402432x1) S3072x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3072x128.size a ≤ S402432x128.size a
  hwx0_11 : ∀ i : grid0.Coords, EltTy.bits .f32 = 32 ∨ (Rect.block (s := S402432x128) S3072x128.size (cc0_transform_11 i) (hinb0_11 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S3072x128_S128x128_S3072x128_1_0_0_1_n_n : DotDims S3072x128 S128x128 S3072x128 where
  lhsContracting := [1]
  rhsContracting := [0]
  lhsNonContracting := [0]
  rhsNonContracting := [1]
  lhsBatch := []
  rhsBatch := []
  wf := dot_S3072x128_S128x128_S3072x128_1_0_0_1_n_n_wf
def dot_S3072x512_S512x128_S3072x128_1_0_0_1_n_n : DotDims S3072x512 S512x128 S3072x128 where
  lhsContracting := [1]
  rhsContracting := [0]
  lhsNonContracting := [0]
  rhsNonContracting := [1]
  lhsBatch := []
  rhsBatch := []
  wf := dot_S3072x512_S512x128_S3072x128_1_0_0_1_n_n_wf

abbrev win0_0 : Pipeline.Window sig grid0 :=
  Pipeline.Window.ofSpec (Memref.whole main_v0) S3072x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S3072x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S3072x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S400000x128 : Shape := ⟨2, ![400000, 128]⟩
abbrev S512x128 : Shape := ⟨2, ![512, 128]⟩
abbrev S400000 : Shape := ⟨1, ![400000]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S400000x512 : Shape := ⟨2, ![400000, 512]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S512x128, .f32⟩
  | .hbm, ⟨4, _⟩ => ⟨S400000, .i32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S400000, .i32⟩
  | .hbm, ⟨11, _⟩ => ⟨S400000, .i1⟩
  | .hbm, ⟨12, _⟩ => ⟨S_, .i32⟩
  | .hbm, ⟨13, _⟩ => ⟨S400000, .i32⟩
  | .hbm, ⟨14, _⟩ => ⟨S400000, .i32⟩
  | .hbm, ⟨15, _⟩ => ⟨S400000, .i32⟩
  | .hbm, ⟨16, _⟩ => ⟨S400000x1, .i32⟩
  | .hbm, ⟨17, _⟩ => ⟨S400000x128, .f32⟩
  | .hbm, ⟨18, _⟩ => ⟨S400000x512, .f32⟩
  | .hbm, ⟨19, _⟩ => ⟨S400000x128, .f32⟩
  | .hbm, ⟨20, _⟩ => ⟨S1x128, .f32⟩
  | .hbm, ⟨21, _⟩ => ⟨S400000x128, .f32⟩
  | .hbm, ⟨22, _⟩ => ⟨S400000x128, .f32⟩
  | .hbm, ⟨23, _⟩ => ⟨S_, .f32⟩
  | .hbm, ⟨24, _⟩ => ⟨S400000x128, .f32⟩
  | .hbm, ⟨25, _⟩ => ⟨S400000x128, .f32⟩
  | .hbm, ⟨26, _⟩ => ⟨S400000x128, .f32⟩
  | .hbm, ⟨27, _⟩ => ⟨S1x128, .f32⟩
  | .hbm, ⟨28, _⟩ => ⟨S400000x128, .f32⟩
  | .hbm, ⟨29, _⟩ => ⟨S400000x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x128_S400000x512_d1 : Shape.Concatenates [S400000x128, S400000x128, S400000x128, S400000x128] S400000x512 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  gather_S512x128_S400000x1_S400000x128_1_0_n_n_0_1_1128_wf : GatherDims.WF S512x128 S400000x1 S400000x128 [1] [0] [] [0] [] 1 ![1, 128]
  dot_S400000x512_S512x128_S400000x128_1_0_0_1_n_n_wf : DotDims.WF S400000x512 S512x128 S400000x128 [1] [0] [0] [1] [] []
  dot_S400000x128_S128x128_S400000x128_1_0_0_1_n_n_wf : DotDims.WF S400000x128 S128x128 S400000x128 [1] [0] [0] [1] [] []

variable [Facts₀]

def gather_S512x128_S400000x1_S400000x128_1_0_n_n_0_1_1128 : GatherDims S512x128 S400000x1 S400000x128 where
  offsetDims := [1]
  collapsedSliceDims := [0]
  operandBatchingDims := []
  startIndicesBatchingDims := []
  startIndexMap := [0]
  indexVectorDim := 1
  sliceSizes := ![1, 128]
  wf := gather_S512x128_S400000x1_S400000x128_1_0_n_n_0_1_1128_wf
def dot_S400000x512_S512x128_S400000x128_1_0_0_1_n_n : DotDims S400000x512 S512x128 S400000x128 where
  lhsContracting := [1]
  rhsContracting := [0]
  lhsNonContracting := [0]
  rhsNonContracting := [1]
  lhsBatch := []
  rhsBatch := []
  wf := dot_S400000x512_S512x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf

class Facts : Prop extends Facts₀ where

variable [Facts]
-- ==== Proof.Spec.lean ====
import Idealize.ShloMosaic.PureOps.Ideal
import Idealize.ShloMosaic.Lib.ValueIdx

/-!
# The edge model as one function of its argument arrays

For edge `e` the model concatenates the edge's three feature rows with row `batch e` of the global table `u`,
applies a 512 → 128 linear layer, a rectifier, and a 128 → 128 linear layer:

  out e j = Σ_k max (Σ_l comb e l · W1 l k + b1 k) 0 · W2 k j + b2 j.

Since `comb e` is four rows of length 128 laid side by side, the inner sum over 512 columns is the sum of four sums
over 128 columns, one per 128-row band of `W1`; and the band that meets `u (batch e)` can be applied to all of
`u` first: Σ_l u (batch e) l · W1 (384 + l) k is entry `(batch e, k)` of the product of `u` with the last band,
which in turn is Σ_q [batch e = q] · (u · band₃) q k. All of this holds in the extended reals with no finiteness
assumption: only commutativity and associativity of `+`, `0 · x = 0` and `1 · x = x` are used.
-/

noncomputable section

open scoped BigOperators
open Idealize.ShloMosaic Idealize.ShloMosaic.ValueIdx

namespace EdgeMlp

/-- Row `q · 128 + l` of a 512-row matrix: row `l` of its `q`-th band of 128 rows. -/
def band (q : Fin 4) (l : Fin 128) : Fin 512 :=
  ⟨q.val * 128 + l.val, by have := q.isLt; have := l.isLt; omega⟩

/-- The indicator of "the word `w` is the row number `q`", as an extended real. -/
def hot (w : BitVec 32) (q : Fin 512) : EReal := if w = BitVec.ofNat 32 q.val then 1 else 0

/-- Four rows of length 128 laid side by side: a row of length 512. -/
def cat4 (s d g r : Fin 128 → EReal) (l : Fin 512) : EReal :=
  if h0 : l.val < 128 then s ⟨l.val, h0⟩
  else if h1 : l.val < 256 then d ⟨l.val - 128, by omega⟩
  else if h2 : l.val < 384 then g ⟨l.val - 256, by omega⟩
  else r ⟨l.val - 384, by have := l.isLt; omega⟩

/-- The first layer before the rectifier, for one edge, in the banded arrangement: the three feature rows against
    the first three bands, the indicator row of the edge's graph against the table `T` (the global rows already
    multiplied by the fourth band), and the bias. -/
def hidden (s d g : Fin 128 → EReal) (w : BitVec 32) (T : Fin 512 → Fin 128 → EReal)
    (Wa Wb Wc : Fin 128 → Fin 128 → EReal) (b1 : Fin 128 → EReal) (k : Fin 128) : EReal :=
  ((((∑ l, s l * Wa l k) + ∑ l, d l * Wb l k) + ∑ l, g l * Wc l k) + ∑ q : Fin 512, hot w q * T q k) + b1 k

/-- The first layer before the rectifier, for one edge, as the reference arranges it: the concatenated row against
    the whole 512-row matrix, and the bias. -/
def hiddenCat (s d g r : Fin 128 → EReal) (W : Fin 512 → Fin 128 → EReal) (b1 : Fin 128 → EReal) (k : Fin 128) : EReal :=
  (∑ l : Fin 512, cat4 s d g r l * W l k) + b1 k

/-- The rectifier and the second layer, for one edge. -/
def rowOut (hid : Fin 128 → EReal) (W2 : Fin 128 → Fin 128 → EReal) (b2 : Fin 128 → EReal) (j : Fin 128) : EReal :=
  (∑ k, max (hid k) 0 * W2 k j) + b2 j

/-! ## Over the argument arrays -/

abbrev SE : Shape := ⟨2, ![400000, 128]⟩
abbrev SG : Shape := ⟨2, ![512, 128]⟩
abbrev SB : Shape := ⟨1, ![400000]⟩
abbrev SV : Shape := ⟨1, ![128]⟩
abbrev SW : Shape := ⟨2, ![128, 128]⟩

/-- Every graph id is a row number of the global table. -/
def InRange (batch : IVec SB 32) : Prop := ∀ e : Fin 400000, (batch (ix1 e)).toNat < 512

/-- The global table multiplied by the fourth band of the first layer's weights. -/
def table (u W1 : FVec Ideal SG .f32) (q : Fin 512) (k : Fin 128) : EReal :=
  ∑ l : Fin 128, u (ix2 q l) * W1 (ix2 (band 3 l) k)

/-- Band `q` of the first layer's weights. -/
def w1band (W1 : FVec Ideal SG .f32) (q : Fin 4) (l k : Fin 128) : EReal := W1 (ix2 (band q l) k)

/-- The model's output at edge `e`, column `j`, in the banded arrangement. -/
def outAt (src dest edge : FVec Ideal SE .f32) (u : FVec Ideal SG .f32) (batch : IVec SB 32)
    (W1 : FVec Ideal SG .f32) (b1 : FVec Ideal SV .f32) (W2 : FVec Ideal SW .f32) (b2 : FVec Ideal SV .f32)
    (e : Fin 400000) (j : Fin 128) : EReal :=
  rowOut (hidden (fun l => src (ix2 e l)) (fun l => dest (ix2 e l)) (fun l => edge (ix2 e l)) (batch (ix1 e))
      (table u W1) (w1band W1 0) (w1band W1 1) (w1band W1 2) (fun k => b1 (ix1 k)))
    (fun k j => W2 (ix2 k j)) (fun j => b2 (ix1 j)) j

/-- The model's output as one array. -/
def G (src dest edge : FVec Ideal SE .f32) (u : FVec Ideal SG .f32) (batch : IVec SB 32)
    (W1 : FVec Ideal SG .f32) (b1 : FVec Ideal SV .f32) (W2 : FVec Ideal SW .f32) (b2 : FVec Ideal SV .f32) :
    FVec Ideal SE .f32 :=
  fun i => outAt src dest edge u batch W1 b1 W2 b2 ⟨(i 0).val, idx2_lt0 i⟩ ⟨(i 1).val, idx2_lt1 i⟩

theorem G_ix2 (src dest edge : FVec Ideal SE .f32) (u : FVec Ideal SG .f32) (batch : IVec SB 32)
    (W1 : FVec Ideal SG .f32) (b1 : FVec Ideal SV .f32) (W2 : FVec Ideal SW .f32) (b2 : FVec Ideal SV .f32)
    (e : Fin 400000) (j : Fin 128) :
    G src dest edge u batch W1 b1 W2 b2 (ix2 e j) = outAt src dest edge u batch W1 b1 W2 b2 e j := rfl

end EdgeMlp

end
-- ==== Proof.KerHost.lean ====
import proofs.«421708_j53970559042216_3_alg».proof.Proof.Gen.KernelIdeal.Frame
import proofs.«421708_j53970559042216_3_alg».proof.Proof.Spec
import Idealize.ShloMosaic.Lib.Pipeline.Value
import Idealize.ShloMosaic.Lib.ValueLayout
import Idealize.ShloMosaic.Lib.KernelVsHost
import Idealize.ShloMosaic.Lib.StableHlo.Run
import Idealize.ShloMosaic.PureOps.Ideal.Laws

/-!
# The arrays the kernel region finds, entry by entry

Before the region the program pads the three feature arrays and the graph ids from 400000 to 402432 rows (zeros
below), turns the ids into a column, cuts the first layer's 512 × 128 weights into four 128-row bands, multiplies
the global table by the fourth band, and reshapes the two bias vectors into rows. Read at an entry — for the padded
arrays, at a row below 400000 — each of these is an entry of an argument array, or the table's sum.
-/

noncomputable section

open scoped BigOperators
open Idealize.ShloMosaic Idealize.ShloMosaic.TcCoe Idealize.ShloMosaic.ValueIdx Idealize.SL.Sem

namespace Cert.KernelIdeal.KerValue

open Cert.KernelIdeal Cert.KernelIdeal.Gen

variable (m : (ℓ : Loc nD τ sig) → Buf (Elt Ideal) ℓ)

/-! ## The argument arrays and the region's arrays, at their literal types -/

abbrev aSrc (c : Dev nD) : FVec Ideal S400000x128 .f32 := m ((c : Thread nD τ).loc main_arg0)
abbrev aDest (c : Dev nD) : FVec Ideal S400000x128 .f32 := m ((c : Thread nD τ).loc main_arg1)
abbrev aEdge (c : Dev nD) : FVec Ideal S400000x128 .f32 := m ((c : Thread nD τ).loc main_arg2)
abbrev aU (c : Dev nD) : FVec Ideal S512x128 .f32 := m ((c : Thread nD τ).loc main_arg3)
abbrev aBatch (c : Dev nD) : IVec S400000 32 := m ((c : Thread nD τ).loc main_arg4)
abbrev aW1 (c : Dev nD) : FVec Ideal S512x128 .f32 := m ((c : Thread nD τ).loc main_arg5)
abbrev aB1 (c : Dev nD) : FVec Ideal S128 .f32 := m ((c : Thread nD τ).loc main_arg6)
abbrev aW2 (c : Dev nD) : FVec Ideal S128x128 .f32 := m ((c : Thread nD τ).loc main_arg7)
abbrev aB2 (c : Dev nD) : FVec Ideal S128 .f32 := m ((c : Thread nD τ).loc main_arg8)

abbrev wSrc (c : Dev nD) : FVec Ideal S402432x128 .f32 := V m c main_v0
abbrev wDest (c : Dev nD) : FVec Ideal S402432x128 .f32 := V m c main_v1
abbrev wEdge (c : Dev nD) : FVec Ideal S402432x128 .f32 := V m c main_v2
abbrev wBatch (c : Dev nD) : IVec S402432x1 32 := V m c main_v4
abbrev wTable (c : Dev nD) : FVec Ideal S512x128 .f32 := V m c main_v13
abbrev wWa (c : Dev nD) : FVec Ideal S128x128 .bf16 := V m c main_v9
abbrev wWb (c : Dev nD) : FVec Ideal S128x128 .bf16 := V m c main_v10
abbrev wWc (c : Dev nD) : FVec Ideal S128x128 .bf16 := V m c main_v11
abbrev wW2 (c : Dev nD) : FVec Ideal S128x128 .bf16 := V m c main_v12
abbrev wB1 (c : Dev nD) : FVec Ideal S1x128 .f32 := V m c main_v14
abbrev wB2 (c : Dev nD) : FVec Ideal S1x128 .f32 := V m c main_v15

/-- Row `e` of an argument array as a row of its padded copy. -/
abbrev up (e : Fin 400000) : Fin 402432 := ⟨e.val, by have := e.isLt; omega⟩

/-! ## The layout operations read at an entry -/

section Reads

variable {α : Type}

/-- An array padded with 2432 rows below, read at a row below 400000: that row of the operand. -/
private theorem pad_rows_apply (x : S400000x128.Idx → α) (v : S_.Idx → α)
    (h : S400000x128.Pads (![0, 0] : Fin 2 → Nat) ![2432, 0] ![0, 0] S402432x128) (hu : 0 < S_.numel)
    (e : Fin 400000) (l : Fin 128) :
    pad S402432x128 ![0, 0] ![2432, 0] ![0, 0] x v h hu (ix2 (up e) l) = x (ix2 e l) :=
  pad_apply_of_inside _ _ _ x v h hu _ (ix2 e l) (fun a => match a with
    | ⟨0, _⟩ => by show e.val = 0 + e.val * (0 + 1); omega
    | ⟨1, _⟩ => by show l.val = 0 + l.val * (0 + 1); omega)

/-- A vector padded with 2432 entries below, read at an entry below 400000: that entry of the operand. -/
private theorem pad_ids_apply (x : S400000.Idx → α) (v : S_.Idx → α)
    (h : S400000.Pads (![0] : Fin 1 → Nat) ![2432] ![0] S402432) (hu : 0 < S_.numel) (e : Fin 400000) :
    pad S402432 ![0] ![2432] ![0] x v h hu (ix1 (up e)) = x (ix1 e) :=
  pad_apply_of_inside _ _ _ x v h hu _ (ix1 e) (fun a => match a with
    | ⟨0, _⟩ => by show e.val = 0 + e.val * (0 + 1); omega)

/-- A vector turned into a column, read at `(r, 0)`: entry `r` of the vector. -/
private theorem column_apply (x : S402432.Idx → α) (h : S402432.ShapeCasts S402432x1) (r : Fin 402432) (u : Fin 1) :
    shapeCast S402432x1 x h (ix2 r u) = x (ix1 r) :=
  shapeCast_apply x h _ _ (by
    have hu : u.val = 0 := by omega
    rw [Shape.rowMajor_val_two, Shape.rowMajor_val_one]
    show r.val = r.val * 1 + u.val
    omega)

/-- The 128 rows from row `q · 128` on of a 512-row matrix, read at `(l, k)`: entry `(q · 128 + l, k)` of the
    matrix. -/
private theorem band_slice_apply (q : Fin 4) (x : S512x128.Idx → α) (off : Fin 2 → Nat) (hoff0 : off 0 = q.val * 128)
    (hoff1 : off 1 = 0) (h : S512x128.Slices off S128x128) (l k : Fin 128) :
    extractStridedSlice S128x128 off x h (ix2 l k) = x (ix2 (EdgeMlp.band q l) k) :=
  extractStridedSlice_apply off x h _ (ix2 (EdgeMlp.band q l) k) (fun a => match a with
    | ⟨0, _⟩ => by show q.val * 128 + l.val = off 0 + l.val; rw [hoff0]
    | ⟨1, _⟩ => by show k.val = off 1 + k.val; rw [hoff1, Nat.zero_add])

end Reads

/-- The same band narrowed to the 16-bit format: in the extended reals narrowing changes no entry. -/
private theorem band_trunc_apply (q : Fin 4) (x : FVec Ideal S512x128 .f32) (off : Fin 2 → Nat) (hoff0 : off 0 = q.val * 128)
    (hoff1 : off 1 = 0) (h : S512x128.Slices off S128x128) (hb : FTy.bits .bf16 < FTy.bits .f32) (l k : Fin 128) :
    (truncf .bf16 (extractStridedSlice S128x128 off x h : FVec Ideal S128x128 .f32) hb : FVec Ideal S128x128 .bf16) (ix2 l k)
      = x (ix2 (EdgeMlp.band q l) k) :=
  (truncf_apply (ψ := .bf16) _ hb _).trans (band_slice_apply q x off hoff0 hoff1 h l k)

/-! ## The product of the global table with a band, at an entry

The contraction runs over axis 1 of the left operand and axis 0 of the right one; the result's axes are the left
operand's axis 0 and the right operand's axis 1. So entry `(q, k)` of the product is the sum over `l` of the left
operand at `(q, l)` times the right operand at `(l, k)`. -/

private theorem dot_lhs0 (i : S512x128.Idx) (p : dot_S512x128_S128x128_S512x128_1_0_0_1_n_n.contr.Idx) :
    (dot_S512x128_S128x128_S512x128_1_0_0_1_n_n.lhsIdx i p 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
private theorem dot_lhs1 (i : S512x128.Idx) (p : dot_S512x128_S128x128_S512x128_1_0_0_1_n_n.contr.Idx) :
    (dot_S512x128_S128x128_S512x128_1_0_0_1_n_n.lhsIdx i p 1).val = (p ⟨0, by decide⟩).val :=
  dot_S512x128_S128x128_S512x128_1_0_0_1_n_n.lhsIdx_val_of_single rfl i p
private theorem dot_rhs0 (i : S512x128.Idx) (p : dot_S512x128_S128x128_S512x128_1_0_0_1_n_n.contr.Idx) :
    (dot_S512x128_S128x128_S512x128_1_0_0_1_n_n.rhsIdx i p 0).val = (p ⟨0, by decide⟩).val :=
  dot_S512x128_S128x128_S512x128_1_0_0_1_n_n.rhsIdx_val_of_single rfl i p
private theorem dot_rhs1 (i : S512x128.Idx) (p : dot_S512x128_S128x128_S512x128_1_0_0_1_n_n.contr.Idx) :
    (dot_S512x128_S128x128_S512x128_1_0_0_1_n_n.rhsIdx i p 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

private theorem dot_apply (prec : Option ContractPrecision) (x : FVec Ideal S512x128 .f32) (y : FVec Ideal S128x128 .f32)
    (q : Fin 512) (k : Fin 128) :
    Host.dotGeneral dot_S512x128_S128x128_S512x128_1_0_0_1_n_n prec x y (ix2 q k) = ∑ l : Fin 128, x (ix2 q l) * y (ix2 l k) := by
  simp only [Host.dotGeneral]
  rw [Ideal.dotGeneral_apply, ← Equiv.sum_comp (contrEquiv1 dot_S512x128_S128x128_S512x128_1_0_0_1_n_n 128 rfl rfl).symm]
  refine Finset.sum_congr rfl fun l _ => ?_
  have hl := contrEquiv1_symm_val dot_S512x128_S128x128_S512x128_1_0_0_1_n_n 128 rfl rfl l
  have el : dot_S512x128_S128x128_S512x128_1_0_0_1_n_n.lhsIdx (ix2 q k)
      ((contrEquiv1 dot_S512x128_S128x128_S512x128_1_0_0_1_n_n 128 rfl rfl).symm l) = ix2 q l := funext fun a => Fin.ext (by
    match a with
    | ⟨0, _⟩ => exact dot_lhs0 _ _
    | ⟨1, _⟩ => exact (dot_lhs1 _ _).trans hl)
  have er : dot_S512x128_S128x128_S512x128_1_0_0_1_n_n.rhsIdx (ix2 q k)
      ((contrEquiv1 dot_S512x128_S128x128_S512x128_1_0_0_1_n_n 128 rfl rfl).symm l) = ix2 l k := funext fun a => Fin.ext (by
    match a with
    | ⟨0, _⟩ => exact (dot_rhs0 _ _).trans hl
    | ⟨1, _⟩ => exact dot_rhs1 _ _)
  rw [el, er]

/-! ## Each of the region's arrays as a term over the argument arrays

The host operations before the region, followed up to the array in question: each array is one or two operations
applied to argument arrays. -/

/-- The fold of the host operations before the region, opened at one array. -/
local macro "host_ops_at" : tactic =>
  `(tactic| (dsimp only [wSrc, wDest, wEdge, wBatch, wTable, wWa, wWb, wWc, wW2, wB1, wB2, V, V0]
             simp only [hostOps0, hostOps0_1, hostOps0_2, hostOps0_3, hostOps0_4, hostOps0_5, hostOps0_6, hostOps0_7,
               hostOps0_8, List.flatten_cons, List.flatten_nil, List.append_nil, List.cons_append, List.nil_append]
             after_results))

private theorem wSrc_eq (c : Dev nD) :
    wSrc m c = pad S402432x128 ![0, 0] ![2432, 0] ![0, 0] (aSrc m c) (sitofp .f32 (constantI S_ 32 0#32) : FVec Ideal S_ .f32)
      pads_S400000x128_S402432x128_024320_000 h_S_ := by
  host_ops_at; rfl
private theorem wDest_eq (c : Dev nD) :
    wDest m c = pad S402432x128 ![0, 0] ![2432, 0] ![0, 0] (aDest m c) (sitofp .f32 (constantI S_ 32 0#32) : FVec Ideal S_ .f32)
      pads_S400000x128_S402432x128_024320_000 h_S_ := by
  host_ops_at; rfl
private theorem wEdge_eq (c : Dev nD) :
    wEdge m c = pad S402432x128 ![0, 0] ![2432, 0] ![0, 0] (aEdge m c) (sitofp .f32 (constantI S_ 32 0#32) : FVec Ideal S_ .f32)
      pads_S400000x128_S402432x128_024320_000 h_S_ := by
  host_ops_at; rfl
private theorem wBatch_eq (c : Dev nD) :
    wBatch m c = shapeCast S402432x1
      (pad S402432 ![0] ![2432] ![0] (aBatch m c) (id (constantI S_ 32 0#32) : IVec S_ 32) pads_S400000_S402432_024320 h_S_ :
        IVec S402432 32) shapeCasts_S402432_S402432x1 := by
  host_ops_at; rfl
private theorem wTable_eq (c : Dev nD) :
    wTable m c = Host.dotGeneral dot_S512x128_S128x128_S512x128_1_0_0_1_n_n (some .fp32) (aU m c)
      (extractStridedSlice S128x128 ![384, 0] (aW1 m c) slices_S512x128_S128x128_384_0 : FVec Ideal S128x128 .f32) := by
  host_ops_at
private theorem wWa_eq (c : Dev nD) :
    wWa m c = truncf .bf16 (extractStridedSlice S128x128 ![0, 0] (aW1 m c) slices_S512x128_S128x128_0_0 : FVec Ideal S128x128 .f32)
      bitsLt_bf16_f32 := by
  host_ops_at
private theorem wWb_eq (c : Dev nD) :
    wWb m c = truncf .bf16 (extractStridedSlice S128x128 ![128, 0] (aW1 m c) slices_S512x128_S128x128_128_0 : FVec Ideal S128x128 .f32)
      bitsLt_bf16_f32 := by
  host_ops_at
private theorem wWc_eq (c : Dev nD) :
    wWc m c = truncf .bf16 (extractStridedSlice S128x128 ![256, 0] (aW1 m c) slices_S512x128_S128x128_256_0 : FVec Ideal S128x128 .f32)
      bitsLt_bf16_f32 := by
  host_ops_at
private theorem wW2_eq (c : Dev nD) : wW2 m c = truncf .bf16 (aW2 m c) bitsLt_bf16_f32 := by
  host_ops_at
private theorem wB1_eq (c : Dev nD) : wB1 m c = shapeCast S1x128 (aB1 m c) shapeCasts_S128_S1x128 := by
  host_ops_at; rfl
private theorem wB2_eq (c : Dev nD) : wB2 m c = shapeCast S1x128 (aB2 m c) shapeCasts_S128_S1x128 := by
  host_ops_at; rfl

/-! ## Each of the region's arrays at an entry -/

theorem wSrc_apply (c : Dev nD) (e : Fin 400000) (l : Fin 128) : wSrc m c (ix2 (up e) l) = aSrc m c (ix2 e l) :=
  (congrFun (wSrc_eq m c) _).trans (pad_rows_apply _ _ _ _ e l)
theorem wDest_apply (c : Dev nD) (e : Fin 400000) (l : Fin 128) : wDest m c (ix2 (up e) l) = aDest m c (ix2 e l) :=
  (congrFun (wDest_eq m c) _).trans (pad_rows_apply _ _ _ _ e l)
theorem wEdge_apply (c : Dev nD) (e : Fin 400000) (l : Fin 128) : wEdge m c (ix2 (up e) l) = aEdge m c (ix2 e l) :=
  (congrFun (wEdge_eq m c) _).trans (pad_rows_apply _ _ _ _ e l)
theorem wBatch_apply (c : Dev nD) (e : Fin 400000) : wBatch m c (ix2 (up e) (0 : Fin 1)) = aBatch m c (ix1 e) :=
  (congrFun (wBatch_eq m c) _).trans ((column_apply _ _ (up e) 0).trans (pad_ids_apply _ _ _ _ e))
theorem wTable_apply (c : Dev nD) (q : Fin 512) (k : Fin 128) :
    wTable m c (ix2 q k) = EdgeMlp.table (aU m c) (aW1 m c) q k :=
  (congrFun (wTable_eq m c) _).trans ((dot_apply _ _ _ q k).trans
    (Finset.sum_congr rfl fun l _ => congrArg (aU m c (ix2 q l) * ·) (band_slice_apply 3 _ _ rfl rfl _ l k)))
theorem wWa_apply (c : Dev nD) (l k : Fin 128) : wWa m c (ix2 l k) = EdgeMlp.w1band (aW1 m c) 0 l k :=
  (congrFun (wWa_eq m c) _).trans (band_trunc_apply 0 _ _ rfl rfl _ _ l k)
theorem wWb_apply (c : Dev nD) (l k : Fin 128) : wWb m c (ix2 l k) = EdgeMlp.w1band (aW1 m c) 1 l k :=
  (congrFun (wWb_eq m c) _).trans (band_trunc_apply 1 _ _ rfl rfl _ _ l k)
theorem wWc_apply (c : Dev nD) (l k : Fin 128) : wWc m c (ix2 l k) = EdgeMlp.w1band (aW1 m c) 2 l k :=
  (congrFun (wWc_eq m c) _).trans (band_trunc_apply 2 _ _ rfl rfl _ _ l k)
theorem wW2_apply (c : Dev nD) (k j : Fin 128) : wW2 m c (ix2 k j) = aW2 m c (ix2 k j) :=
  (congrFun (wW2_eq m c) _).trans (truncf_apply (ψ := .bf16) (aW2 m c) bitsLt_bf16_f32 _)
theorem wB1_apply (c : Dev nD) (k : Fin 128) : wB1 m c (ix2 (0 : Fin 1) k) = aB1 m c (ix1 k) :=
  (congrFun (wB1_eq m c) _).trans (shapeCast_a_1a_apply _ _ 0 k)
theorem wB2_apply (c : Dev nD) (k : Fin 128) : wB2 m c (ix2 (0 : Fin 1) k) = aB2 m c (ix1 k) :=
  (congrFun (wB2_eq m c) _).trans (shapeCast_a_1a_apply _ _ 0 k)

end Cert.KernelIdeal.KerValue

end
-- ==== Proof.KerPayload.lean ====
import proofs.«421708_j53970559042216_3_alg».proof.Proof.Gen.KernelIdeal.Skeleton
import proofs.«421708_j53970559042216_3_alg».proof.Proof.Spec
import Idealize.ShloMosaic.Lib.Pipeline.Value
import Idealize.ShloMosaic.Lib.ValueLayout
import Idealize.ShloMosaic.PureOps.Ideal.Laws
import Idealize.ShloMosaic.Lib.StableHlo.Predicate

/-!
# What the kernel body stores, entry by entry

For a block of 3072 edges the body stores, at row `r` and column `j`, the model's banded formula of the row's three
feature rows, the row's graph id (compared with the lane number to make an indicator row of length 512), the
512 × 128 table, the three 128 × 128 weight bands, the second layer's weights and the two bias rows. Changes of
float format are the identity on extended reals, and a matrix product into a zero accumulator is the plain sum.
-/

noncomputable section

open scoped BigOperators
open Idealize.ShloMosaic Idealize.ShloMosaic.ValueIdx

namespace Cert.KernelIdeal.KerValue

open Cert.KernelIdeal Cert.KernelIdeal.Gen

/-! ## The two matrix products' operand indices -/

private theorem lhs_k128_0 (i : S3072x128.Idx) (q : dot_S3072x128_S128x128_S3072x128_1_0_0_1_n_n.contr.Idx) :
    (dot_S3072x128_S128x128_S3072x128_1_0_0_1_n_n.lhsIdx i q 0).val = (i 0).val := by
  unfold DotDims.lhsIdx
  rw [dif_neg (show ¬(0 : Fin S3072x128.rank) ∈ dot_S3072x128_S128x128_S3072x128_1_0_0_1_n_n.lhsBatch by decide), dif_pos (show (0 : Fin S3072x128.rank) ∈ dot_S3072x128_S128x128_S3072x128_1_0_0_1_n_n.lhsNonContracting by decide)]
  rfl
private theorem lhs_k128_1 (i : S3072x128.Idx) (q : dot_S3072x128_S128x128_S3072x128_1_0_0_1_n_n.contr.Idx) :
    (dot_S3072x128_S128x128_S3072x128_1_0_0_1_n_n.lhsIdx i q 1).val = (q ⟨0, by decide⟩).val :=
  dot_S3072x128_S128x128_S3072x128_1_0_0_1_n_n.lhsIdx_val_of_single rfl i q
private theorem rhs_k128_0 (i : S3072x128.Idx) (q : dot_S3072x128_S128x128_S3072x128_1_0_0_1_n_n.contr.Idx) :
    (dot_S3072x128_S128x128_S3072x128_1_0_0_1_n_n.rhsIdx i q 0).val = (q ⟨0, by decide⟩).val :=
  dot_S3072x128_S128x128_S3072x128_1_0_0_1_n_n.rhsIdx_val_of_single rfl i q
private theorem rhs_k128_1 (i : S3072x128.Idx) (q : dot_S3072x128_S128x128_S3072x128_1_0_0_1_n_n.contr.Idx) :
    (dot_S3072x128_S128x128_S3072x128_1_0_0_1_n_n.rhsIdx i q 1).val = (i 1).val := by
  unfold DotDims.rhsIdx
  rw [dif_neg (show ¬(1 : Fin S128x128.rank) ∈ dot_S3072x128_S128x128_S3072x128_1_0_0_1_n_n.rhsBatch by decide), dif_pos (show (1 : Fin S128x128.rank) ∈ dot_S3072x128_S128x128_S3072x128_1_0_0_1_n_n.rhsNonContracting by decide)]
  rfl

/-- A 3072 × 128 by 128 × 128 product into the zero accumulator, at row `r` and column `j`. -/
private theorem matmul_k128_apply (a : FVec Ideal S3072x128 .bf16) (b : FVec Ideal S128x128 .bf16) (r : Fin 3072) (j : Fin 128) :
    matmul dot_S3072x128_S128x128_S3072x128_1_0_0_1_n_n none a b (constant (F := Ideal) S3072x128 .f32 0x00000000#32) (ix2 r j)
      = ∑ l : Fin 128, a (ix2 r l) * b (ix2 l j) := by
  simp only [matmul]
  rw [Ideal.matmul_constant_zero_apply, ← Equiv.sum_comp (contrEquiv1 dot_S3072x128_S128x128_S3072x128_1_0_0_1_n_n 128 rfl rfl).symm]
  refine Finset.sum_congr rfl fun l _ => ?_
  have hl := contrEquiv1_symm_val dot_S3072x128_S128x128_S3072x128_1_0_0_1_n_n 128 rfl rfl l
  have el : dot_S3072x128_S128x128_S3072x128_1_0_0_1_n_n.lhsIdx (ix2 r j) ((contrEquiv1 dot_S3072x128_S128x128_S3072x128_1_0_0_1_n_n 128 rfl rfl).symm l) = ix2 r l := funext fun ax => Fin.ext (by
    match ax with
    | ⟨0, _⟩ => exact lhs_k128_0 _ _
    | ⟨1, _⟩ => exact (lhs_k128_1 _ _).trans hl)
  have er : dot_S3072x128_S128x128_S3072x128_1_0_0_1_n_n.rhsIdx (ix2 r j) ((contrEquiv1 dot_S3072x128_S128x128_S3072x128_1_0_0_1_n_n 128 rfl rfl).symm l) = ix2 l j := funext fun ax => Fin.ext (by
    match ax with
    | ⟨0, _⟩ => exact (rhs_k128_0 _ _).trans hl
    | ⟨1, _⟩ => exact rhs_k128_1 _ _)
  rw [el, er]

private theorem lhs_k512_0 (i : S3072x128.Idx) (q : dot_S3072x512_S512x128_S3072x128_1_0_0_1_n_n.contr.Idx) :
    (dot_S3072x512_S512x128_S3072x128_1_0_0_1_n_n.lhsIdx i q 0).val = (i 0).val := by
  unfold DotDims.lhsIdx
  rw [dif_neg (show ¬(0 : Fin S3072x512.rank) ∈ dot_S3072x512_S512x128_S3072x128_1_0_0_1_n_n.lhsBatch by decide), dif_pos (show (0 : Fin S3072x512.rank) ∈ dot_S3072x512_S512x128_S3072x128_1_0_0_1_n_n.lhsNonContracting by decide)]
  rfl
private theorem lhs_k512_1 (i : S3072x128.Idx) (q : dot_S3072x512_S512x128_S3072x128_1_0_0_1_n_n.contr.Idx) :
    (dot_S3072x512_S512x128_S3072x128_1_0_0_1_n_n.lhsIdx i q 1).val = (q ⟨0, by decide⟩).val :=
  dot_S3072x512_S512x128_S3072x128_1_0_0_1_n_n.lhsIdx_val_of_single rfl i q
private theorem rhs_k512_0 (i : S3072x128.Idx) (q : dot_S3072x512_S512x128_S3072x128_1_0_0_1_n_n.contr.Idx) :
    (dot_S3072x512_S512x128_S3072x128_1_0_0_1_n_n.rhsIdx i q 0).val = (q ⟨0, by decide⟩).val :=
  dot_S3072x512_S512x128_S3072x128_1_0_0_1_n_n.rhsIdx_val_of_single rfl i q
private theorem rhs_k512_1 (i : S3072x128.Idx) (q : dot_S3072x512_S512x128_S3072x128_1_0_0_1_n_n.contr.Idx) :
    (dot_S3072x512_S512x128_S3072x128_1_0_0_1_n_n.rhsIdx i q 1).val = (i 1).val := by
  unfold DotDims.rhsIdx
  rw [dif_neg (show ¬(1 : Fin S512x128.rank) ∈ dot_S3072x512_S512x128_S3072x128_1_0_0_1_n_n.rhsBatch by decide), dif_pos (show (1 : Fin S512x128.rank) ∈ dot_S3072x512_S512x128_S3072x128_1_0_0_1_n_n.rhsNonContracting by decide)]
  rfl

/-- A 3072 × 512 by 512 × 128 product into the zero accumulator, at row `r` and column `j`. -/
private theorem matmul_k512_apply (a : FVec Ideal S3072x512 .bf16) (b : FVec Ideal S512x128 .bf16) (r : Fin 3072) (j : Fin 128) :
    matmul dot_S3072x512_S512x128_S3072x128_1_0_0_1_n_n none a b (constant (F := Ideal) S3072x128 .f32 0x00000000#32) (ix2 r j)
      = ∑ q : Fin 512, a (ix2 r q) * b (ix2 q j) := by
  simp only [matmul]
  rw [Ideal.matmul_constant_zero_apply, ← Equiv.sum_comp (contrEquiv1 dot_S3072x512_S512x128_S3072x128_1_0_0_1_n_n 512 rfl rfl).symm]
  refine Finset.sum_congr rfl fun q _ => ?_
  have hq := contrEquiv1_symm_val dot_S3072x512_S512x128_S3072x128_1_0_0_1_n_n 512 rfl rfl q
  have el : dot_S3072x512_S512x128_S3072x128_1_0_0_1_n_n.lhsIdx (ix2 r j) ((contrEquiv1 dot_S3072x512_S512x128_S3072x128_1_0_0_1_n_n 512 rfl rfl).symm q) = ix2 r q := funext fun ax => Fin.ext (by
    match ax with
    | ⟨0, _⟩ => exact lhs_k512_0 _ _
    | ⟨1, _⟩ => exact (lhs_k512_1 _ _).trans hq)
  have er : dot_S3072x512_S512x128_S3072x128_1_0_0_1_n_n.rhsIdx (ix2 r j) ((contrEquiv1 dot_S3072x512_S512x128_S3072x128_1_0_0_1_n_n 512 rfl rfl).symm q) = ix2 q j := funext fun ax => Fin.ext (by
    match ax with
    | ⟨0, _⟩ => exact (rhs_k512_0 _ _).trans hq
    | ⟨1, _⟩ => exact rhs_k512_1 _ _)
  rw [el, er]

/-! ## The indicator row -/

/-- A comparison bit widened to a word and read as a signed integer is the indicator, as an extended real. -/
private theorem hot_eq (w : BitVec 32) (q : Fin 512) :
    FloatOps.sitofp (F := Ideal) .f32 ((IntOp.cmpi .eq w (BitVec.ofNat 32 q.val)).setWidth 32) = EdgeMlp.hot w q := by
  unfold EdgeMlp.hot
  by_cases h : w = BitVec.ofNat 32 q.val
  · have hc : IntOp.cmpi .eq w (BitVec.ofNat 32 q.val) = 1#1 := StableHlo.Predicate.cmpi_eq_iff.mpr h
    rw [if_pos h, hc]
    show (((BitVec.setWidth 32 1#1).toInt : ℝ) : EReal) = 1
    rw [show (BitVec.setWidth 32 1#1).toInt = 1 by decide]
    simp
  · have hc : IntOp.cmpi .eq w (BitVec.ofNat 32 q.val) = 0#1 :=
      eq_zero_of_ne_one (fun h1 => h (StableHlo.Predicate.cmpi_eq_iff.mp h1))
    rw [if_neg h, hc]
    show (((BitVec.setWidth 32 0#1).toInt : ℝ) : EReal) = 0
    rw [show (BitVec.setWidth 32 0#1).toInt = 0 by decide]
    simp

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row's graph id compared with the lane number, as a float: the indicator of "the id is `q`". -/
private theorem onehot_apply (x3 : IVec S3072x1 32) (r : Fin 3072) (q : Fin 512) :
    (truncf .bf16 (sitofp (F := Ideal) .f32 (extui 32 (cmpi .eq
        (broadcastTo S3072x512 (shapeCast S3072x1 x3 shapeCasts_S3072x1_S3072x1) broadcasts_S3072x1_S3072x512)
        (iota .tc S3072x512 32 [1] iota_S3072x512_d1_w32)) natLt_1_32)) bitsLt_bf16_f32 : FVec Ideal S3072x512 .bf16) (ix2 r q)
      = EdgeMlp.hot (x3 (ix2 r (0 : Fin 1))) q := by
  have hb : broadcastTo S3072x512 (shapeCast S3072x1 x3 shapeCasts_S3072x1_S3072x1) broadcasts_S3072x1_S3072x512 (ix2 r q)
      = x3 (ix2 r (0 : Fin 1)) := by
    rw [shapeCast_self]
    exact broadcastTo_a1_ab_apply x3 _ r q
  have hi : iota .tc S3072x512 32 [1] iota_S3072x512_d1_w32 (ix2 r q) = BitVec.ofNat 32 q.val :=
    iota_single_apply .tc S3072x512 32 1 iota_S3072x512_d1_w32 (ix2 r q)
  show FloatOps.sitofp (F := Ideal) .f32 ((IntOp.cmpi .eq
      (broadcastTo S3072x512 (shapeCast S3072x1 x3 shapeCasts_S3072x1_S3072x1) broadcasts_S3072x1_S3072x512 (ix2 r q))
      (iota .tc S3072x512 32 [1] iota_S3072x512_d1_w32 (ix2 r q))).setWidth 32) = _
  rw [hb, hi]
  exact hot_eq _ q

/-! ## The first layer -/

/-- A block of feature rows against one 128 × 128 band of the first layer's weights, at row `r` and column `k`. -/
private theorem band_apply (x : FVec Ideal S3072x128 .f32) (w : FVec Ideal S128x128 .bf16) (r : Fin 3072) (k : Fin 128) :
    matmul dot_S3072x128_S128x128_S3072x128_1_0_0_1_n_n none
        (truncf .bf16 (shapeCast S3072x128 x shapeCasts_S3072x128_S3072x128) bitsLt_bf16_f32)
        (shapeCast S128x128 w shapeCasts_S128x128_S128x128) (constant (F := Ideal) S3072x128 .f32 0x00000000#32) (ix2 r k)
      = ∑ l : Fin 128, x (ix2 r l) * w (ix2 l k) := by
  rw [matmul_k128_apply]
  refine Finset.sum_congr rfl fun l _ => ?_
  rw [truncf_apply, shapeCast_self, shapeCast_self]

/-- The block's indicator rows against the 512 × 128 table, at row `r` and column `k`. -/
private theorem hotsum_apply (x3 : Vec Ideal S3072x1 .i32) (x4 : Vec Ideal S512x128 .f32) (r : Fin 3072) (k : Fin 128) :
    matmul dot_S3072x512_S512x128_S3072x128_1_0_0_1_n_n none
        (truncf .bf16 (sitofp (F := Ideal) .f32 (extui 32 (cmpi .eq
          (broadcastTo S3072x512 (shapeCast S3072x1 x3 shapeCasts_S3072x1_S3072x1) broadcasts_S3072x1_S3072x512)
          (iota .tc S3072x512 32 [1] iota_S3072x512_d1_w32)) natLt_1_32)) bitsLt_bf16_f32)
        (truncf .bf16 (shapeCast S512x128 x4 shapeCasts_S512x128_S512x128) bitsLt_bf16_f32)
        (constant (F := Ideal) S3072x128 .f32 0x00000000#32) (ix2 r k)
      = ∑ q : Fin 512, EdgeMlp.hot (x3 (ix2 r (0 : Fin 1))) q * x4 (ix2 q k) := by
  rw [matmul_k512_apply]
  refine Finset.sum_congr rfl fun q _ => ?_
  rw [onehot_apply, truncf_apply, shapeCast_self]

/-- The first layer before the rectifier, at row `r` and column `k` of the block. -/
private theorem pay2_apply (x0 x1 x2 : Vec Ideal S3072x128 .f32) (x3 : Vec Ideal S3072x1 .i32) (x4 : Vec Ideal S512x128 .f32)
    (x5 x6 x7 : Vec Ideal S128x128 .bf16) (x9 : Vec Ideal S1x128 .f32) (r : Fin 3072) (k : Fin 128) :
    k0_pay2 (F := Ideal) x3 x0 x1 x2 x5 x6 x7 x4 x9 (ix2 r k)
      = EdgeMlp.hidden (fun l => x0 (ix2 r l)) (fun l => x1 (ix2 r l)) (fun l => x2 (ix2 r l)) (x3 (ix2 r (0 : Fin 1)))
          (fun q k => x4 (ix2 q k)) (fun l k => x5 (ix2 l k)) (fun l k => x6 (ix2 l k)) (fun l k => x7 (ix2 l k))
          (fun k => x9 (ix2 (0 : Fin 1) k)) k := by
  unfold k0_pay2 EdgeMlp.hidden
  rw [addf_apply, addf_apply, addf_apply, addf_apply, band_apply, band_apply, band_apply, hotsum_apply,
    broadcastTo_1b_ab_apply, shapeCast_self]

/-! ## The rectifier and the second layer -/

/-- The second layer applied to the rectified hidden block, at row `r` and column `j`. -/
private theorem pay1_apply (v36 : FVec Ideal S3072x128 .f32) (x8 : Vec Ideal S128x128 .bf16) (x10 : Vec Ideal S1x128 .f32)
    (r : Fin 3072) (j : Fin 128) :
    k0_pay1 (F := Ideal) v36 x8 x10 (ix2 r j)
      = (∑ k : Fin 128, max (v36 (ix2 r k)) 0 * x8 (ix2 k j)) + x10 (ix2 (0 : Fin 1) j) := by
  unfold k0_pay1
  rw [addf_apply, matmul_k128_apply, broadcastTo_1b_ab_apply, shapeCast_self, shapeCast_self]
  refine congrArg (· + x10 (ix2 (0 : Fin 1) j)) (Finset.sum_congr rfl fun k _ => ?_)
  rw [truncf_apply, maximumf_apply, broadcast_apply, Ideal.ofBits_def, Ideal.ofBits_zero_f32]

/-- The stored value at row `r`, column `j` of the block. -/
theorem payload_apply (x0 x1 x2 : Vec Ideal S3072x128 .f32) (x3 : Vec Ideal S3072x1 .i32) (x4 : Vec Ideal S512x128 .f32)
    (x5 x6 x7 x8 : Vec Ideal S128x128 .bf16) (x9 x10 : Vec Ideal S1x128 .f32) (r : Fin 3072) (j : Fin 128) :
    k0_pay1 (F := Ideal) (k0_pay2 (F := Ideal) x3 x0 x1 x2 x5 x6 x7 x4 x9) x8 x10 (ix2 r j)
      = EdgeMlp.rowOut
          (EdgeMlp.hidden (fun l => x0 (ix2 r l)) (fun l => x1 (ix2 r l)) (fun l => x2 (ix2 r l)) (x3 (ix2 r (0 : Fin 1)))
            (fun q k => x4 (ix2 q k)) (fun l k => x5 (ix2 l k)) (fun l k => x6 (ix2 l k)) (fun l k => x7 (ix2 l k))
            (fun k => x9 (ix2 (0 : Fin 1) k)))
          (fun k j => x8 (ix2 k j)) (fun j => x10 (ix2 (0 : Fin 1) j)) j := by
  rw [pay1_apply]
  unfold EdgeMlp.rowOut
  refine congrArg (· + x10 (ix2 (0 : Fin 1) j)) (Finset.sum_congr rfl fun k _ => ?_)
  rw [pay2_apply]

end Cert.KernelIdeal.KerValue

end
-- ==== Proof.KerBlocks.lean ====
import proofs.«421708_j53970559042216_3_alg».proof.Proof.KerHost
import proofs.«421708_j53970559042216_3_alg».proof.Proof.KerPayload
import Idealize.ShloMosaic.Lib.Pipeline.Value
import Idealize.ShloMosaic.Lib.StableHlo.Run

/-!
# From the kernel's blocks to the program's result

Grid point `t` of the 131 works on rows `3072·t … 3072·t + 3071` of the padded arrays, with the table, the weight
bands and the bias rows whole at every point. What the body stores at row `r`, column `j` of its block is therefore
the model's banded formula of padded row `3072·t + r`: every point writes back a block of ONE function of the
region's arrays, the 131 blocks tile the padded output, and the program's result is that function's first 400000
rows, where the padded arrays are the arguments.
-/

noncomputable section

open scoped BigOperators
open Idealize.ShloMosaic Idealize.ShloMosaic.TcCoe Idealize.ShloMosaic.ValueIdx Idealize.SL.Sem
open Idealize.ShloMosaic.Pipeline (Dat)

namespace Cert.KernelIdeal.KerValue

open Cert.KernelIdeal Cert.KernelIdeal.Gen

variable (m : (ℓ : Loc nD τ sig) → Buf (Elt Ideal) ℓ) (ρ : Dev nD → PrngReg)

/-- The banded formula at row `e` of the PADDED arrays, column `j`. -/
def padRow (c : Dev nD) (e : Fin 402432) (j : Fin 128) : EReal :=
  EdgeMlp.rowOut
    (EdgeMlp.hidden (fun l => wSrc m c (ix2 e l)) (fun l => wDest m c (ix2 e l)) (fun l => wEdge m c (ix2 e l))
      (wBatch m c (ix2 e (0 : Fin 1))) (fun q k => wTable m c (ix2 q k)) (fun l k => wWa m c (ix2 l k))
      (fun l k => wWb m c (ix2 l k)) (fun l k => wWc m c (ix2 l k)) (fun k => wB1 m c (ix2 (0 : Fin 1) k)))
    (fun k j => wW2 m c (ix2 k j)) (fun j => wB2 m c (ix2 (0 : Fin 1) j)) j

/-- The padded output as one array. -/
def padOut (c : Dev nD) : FVec Ideal S402432x128 .f32 :=
  fun i => padRow m c ⟨(i 0).val, idx2_lt0 i⟩ ⟨(i 1).val, idx2_lt1 i⟩

/-- On the first 400000 rows the padded arrays are the arguments, so the banded formula there is the model's. -/
theorem padRow_up (c : Dev nD) (e : Fin 400000) (j : Fin 128) :
    padRow m c (up e) j
      = EdgeMlp.outAt (aSrc m c) (aDest m c) (aEdge m c) (aU m c) (aBatch m c) (aW1 m c) (aB1 m c) (aW2 m c) (aB2 m c) e j := by
  have h0 : (fun l : Fin 128 => wSrc m c (ix2 (up e) l)) = fun l => aSrc m c (ix2 e l) :=
    funext fun l => wSrc_apply m c e l
  have h1 : (fun l : Fin 128 => wDest m c (ix2 (up e) l)) = fun l => aDest m c (ix2 e l) :=
    funext fun l => wDest_apply m c e l
  have h2 : (fun l : Fin 128 => wEdge m c (ix2 (up e) l)) = fun l => aEdge m c (ix2 e l) :=
    funext fun l => wEdge_apply m c e l
  have h3 : wBatch m c (ix2 (up e) (0 : Fin 1)) = aBatch m c (ix1 e) := wBatch_apply m c e
  have h4 : (fun (q : Fin 512) (k : Fin 128) => wTable m c (ix2 q k)) = EdgeMlp.table (aU m c) (aW1 m c) :=
    funext fun q => funext fun k => wTable_apply m c q k
  have h5 : (fun (l k : Fin 128) => wWa m c (ix2 l k)) = EdgeMlp.w1band (aW1 m c) 0 :=
    funext fun l => funext fun k => wWa_apply m c l k
  have h6 : (fun (l k : Fin 128) => wWb m c (ix2 l k)) = EdgeMlp.w1band (aW1 m c) 1 :=
    funext fun l => funext fun k => wWb_apply m c l k
  have h7 : (fun (l k : Fin 128) => wWc m c (ix2 l k)) = EdgeMlp.w1band (aW1 m c) 2 :=
    funext fun l => funext fun k => wWc_apply m c l k
  have h8 : (fun (k j : Fin 128) => wW2 m c (ix2 k j)) = fun k j => aW2 m c (ix2 k j) :=
    funext fun k => funext fun j => wW2_apply m c k j
  have h9 : (fun k : Fin 128 => wB1 m c (ix2 (0 : Fin 1) k)) = fun k => aB1 m c (ix1 k) :=
    funext fun k => wB1_apply m c k
  have h10 : (fun k : Fin 128 => wB2 m c (ix2 (0 : Fin 1) k)) = fun k => aB2 m c (ix1 k) :=
    funext fun k => wB2_apply m c k
  unfold padRow EdgeMlp.outAt
  rw [h0, h1, h2, h3, h4, h5, h6, h7, h8, h9, h10]

theorem hz : (![0, 0] : Fin 2 → Nat) = fun _ => 0 := funext fun a => by fin_cases a <;> rfl

theorem t_lt (t : Fin cfg0.N) : t.val < 131 := lt_of_lt_of_eq t.isLt N_0

/-- Row `r` of the block of point `t`, as a row of the padded arrays. -/
def rowOf (t : Fin cfg0.N) (r : Fin 3072) : Fin 402432 :=
  ⟨t.val * 3072 + r.val, by have := t_lt t; have := r.isLt; omega⟩

/-! ## Each window's block at a point, read off its array -/

theorem idx_w0 : ∀ t : Fin cfg0.N, win0_0.index t (0 : Fin 2) = t.val ∧ win0_0.index t (1 : Fin 2) = 0 :=
  (by decide +kernel : ∀ t : Fin grid0.N, _)
/-- Row `r` of window 0's block at point `t` is row `3072·t + r` of its array. -/
theorem iblk0 (c : Dev nD) (t : Fin cfg0.N) (r : Fin 3072) (l : Fin 128) :
    (iblk m c 0 t : S3072x128.Idx → _) (ix2 r l) = wSrc m c (ix2 (rowOf t r) l) := by
  obtain ⟨h0, h1⟩ := idx_w0 t
  show V m c main_v0 (((cfg0.win 0).blk t).view.emb (ix2 r l)) = V m c main_v0 (ix2 (rowOf t r) l)
  have h : ((cfg0.win 0).blk t).view.emb (ix2 r l) = ix2 (rowOf t r) l := by
    funext a; apply Fin.ext
    match a with
    | ⟨0, _⟩ => show win0_0.index t (0 : Fin 2) * 3072 + 1 * r.val = t.val * 3072 + r.val; omega
    | ⟨1, _⟩ => show win0_0.index t (1 : Fin 2) * 128 + 1 * l.val = l.val; omega
  rw [h]

theorem idx_w1 : ∀ t : Fin cfg0.N, win0_1.index t (0 : Fin 2) = t.val ∧ win0_1.index t (1 : Fin 2) = 0 :=
  (by decide +kernel : ∀ t : Fin grid0.N, _)
/-- Row `r` of window 1's block at point `t` is row `3072·t + r` of its array. -/
theorem iblk1 (c : Dev nD) (t : Fin cfg0.N) (r : Fin 3072) (l : Fin 128) :
    (iblk m c 1 t : S3072x128.Idx → _) (ix2 r l) = wDest m c (ix2 (rowOf t r) l) := by
  obtain ⟨h0, h1⟩ := idx_w1 t
  show V m c main_v1 (((cfg0.win 1).blk t).view.emb (ix2 r l)) = V m c main_v1 (ix2 (rowOf t r) l)
  have h : ((cfg0.win 1).blk t).view.emb (ix2 r l) = ix2 (rowOf t r) l := by
    funext a; apply Fin.ext
    match a with
    | ⟨0, _⟩ => show win0_1.index t (0 : Fin 2) * 3072 + 1 * r.val = t.val * 3072 + r.val; omega
    | ⟨1, _⟩ => show win0_1.index t (1 : Fin 2) * 128 + 1 * l.val = l.val; omega
  rw [h]

theorem idx_w2 : ∀ t : Fin cfg0.N, win0_2.index t (0 : Fin 2) = t.val ∧ win0_2.index t (1 : Fin 2) = 0 :=
  (by decide +kernel : ∀ t : Fin grid0.N, _)
/-- Row `r` of window 2's block at point `t` is row `3072·t + r` of its array. -/
theorem iblk2 (c : Dev nD) (t : Fin cfg0.N) (r : Fin 3072) (l : Fin 128) :
    (iblk m c 2 t : S3072x128.Idx → _) (ix2 r l) = wEdge m c (ix2 (rowOf t r) l) := by
  obtain ⟨h0, h1⟩ := idx_w2 t
  show V m c main_v2 (((cfg0.win 2).blk t).view.emb (ix2 r l)) = V m c main_v2 (ix2 (rowOf t r) l)
  have h : ((cfg0.win 2).blk t).view.emb (ix2 r l) = ix2 (rowOf t r) l := by
    funext a; apply Fin.ext
    match a with
    | ⟨0, _⟩ => show win0_2.index t (0 : Fin 2) * 3072 + 1 * r.val = t.val * 3072 + r.val; omega
    | ⟨1, _⟩ => show win0_2.index t (1 : Fin 2) * 128 + 1 * l.val = l.val; omega
  rw [h]

theorem idx_w3 : ∀ t : Fin cfg0.N, win0_3.index t (0 : Fin 2) = t.val ∧ win0_3.index t (1 : Fin 2) = 0 :=
  (by decide +kernel : ∀ t : Fin grid0.N, _)
/-- Row `r` of the id column's block at point `t` is row `3072·t + r` of the column. -/
theorem iblk3 (c : Dev nD) (t : Fin cfg0.N) (r : Fin 3072) :
    (iblk m c 3 t : S3072x1.Idx → _) (ix2 r (0 : Fin 1)) = wBatch m c (ix2 (rowOf t r) (0 : Fin 1)) := by
  obtain ⟨h0, h1⟩ := idx_w3 t
  show V m c main_v4 (((cfg0.win 3).blk t).view.emb (ix2 r (0 : Fin 1))) = V m c main_v4 (ix2 (rowOf t r) (0 : Fin 1))
  have h : ((cfg0.win 3).blk t).view.emb (ix2 r (0 : Fin 1)) = ix2 (rowOf t r) (0 : Fin 1) := by
    funext a; apply Fin.ext
    match a with
    | ⟨0, _⟩ => show win0_3.index t (0 : Fin 2) * 3072 + 1 * r.val = t.val * 3072 + r.val; omega
    | ⟨1, _⟩ => show win0_3.index t (1 : Fin 2) * 1 + 1 * 0 = 0; omega
  rw [h]

theorem idx_w4 : ∀ t : Fin cfg0.N, win0_4.index t (0 : Fin 2) = 0 ∧ win0_4.index t (1 : Fin 2) = 0 :=
  (by decide +kernel : ∀ t : Fin grid0.N, _)
/-- Window 4 shows its whole array at every point. -/
theorem iblk4 (c : Dev nD) (t : Fin cfg0.N) : (iblk m c 4 t : S512x128.Idx → _) = wTable m c := by
  obtain ⟨h0, h1⟩ := idx_w4 t
  funext y
  show V m c main_v13 (((cfg0.win 4).blk t).view.emb y) = V m c main_v13 y
  have h : ((cfg0.win 4).blk t).view.emb y = y := by
    funext a; apply Fin.ext
    match a with
    | ⟨0, _⟩ => show win0_4.index t (0 : Fin 2) * 512 + 1 * (y 0).val = (y 0).val; omega
    | ⟨1, _⟩ => show win0_4.index t (1 : Fin 2) * 128 + 1 * (y 1).val = (y 1).val; omega
  rw [h]

theorem idx_w5 : ∀ t : Fin cfg0.N, win0_5.index t (0 : Fin 2) = 0 ∧ win0_5.index t (1 : Fin 2) = 0 :=
  (by decide +kernel : ∀ t : Fin grid0.N, _)
/-- Window 5 shows its whole array at every point. -/
theorem iblk5 (c : Dev nD) (t : Fin cfg0.N) : (iblk m c 5 t : S128x128.Idx → _) = wWa m c := by
  obtain ⟨h0, h1⟩ := idx_w5 t
  funext y
  show V m c main_v9 (((cfg0.win 5).blk t).view.emb y) = V m c main_v9 y
  have h : ((cfg0.win 5).blk t).view.emb y = y := by
    funext a; apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  rw [h]

theorem idx_w6 : ∀ t : Fin cfg0.N, win0_6.index t (0 : Fin 2) = 0 ∧ win0_6.index t (1 : Fin 2) = 0 :=
  (by decide +kernel : ∀ t : Fin grid0.N, _)
/-- Window 6 shows its whole array at every point. -/
theorem iblk6 (c : Dev nD) (t : Fin cfg0.N) : (iblk m c 6 t : S128x128.Idx → _) = wWb m c := by
  obtain ⟨h0, h1⟩ := idx_w6 t
  funext y
  show V m c main_v10 (((cfg0.win 6).blk t).view.emb y) = V m c main_v10 y
  have h : ((cfg0.win 6).blk t).view.emb y = y := by
    funext a; apply Fin.ext
    match a with
    | ⟨0, _⟩ => show win0_6.index t (0 : Fin 2) * 128 + 1 * (y 0).val = (y 0).val; omega
    | ⟨1, _⟩ => show win0_6.index t (1 : Fin 2) * 128 + 1 * (y 1).val = (y 1).val; omega
  rw [h]

theorem idx_w7 : ∀ t : Fin cfg0.N, win0_7.index t (0 : Fin 2) = 0 ∧ win0_7.index t (1 : Fin 2) = 0 :=
  (by decide +kernel : ∀ t : Fin grid0.N, _)
/-- Window 7 shows its whole array at every point. -/
theorem iblk7 (c : Dev nD) (t : Fin cfg0.N) : (iblk m c 7 t : S128x128.Idx → _) = wWc m c := by
  obtain ⟨h0, h1⟩ := idx_w7 t
  funext y
  show V m c main_v11 (((cfg0.win 7).blk t).view.emb y) = V m c main_v11 y
  have h : ((cfg0.win 7).blk t).view.emb y = y := by
    funext a; apply Fin.ext
    match a with
    | ⟨0, _⟩ => show win0_7.index t (0 : Fin 2) * 128 + 1 * (y 0).val = (y 0).val; omega
    | ⟨1, _⟩ => show win0_7.index t (1 : Fin 2) * 128 + 1 * (y 1).val = (y 1).val; omega
  rw [h]

theorem idx_w8 : ∀ t : Fin cfg0.N, win0_8.index t (0 : Fin 2) = 0 ∧ win0_8.index t (1 : Fin 2) = 0 :=
  (by decide +kernel : ∀ t : Fin grid0.N, _)
/-- Window 8 shows its whole array at every point. -/
theorem iblk8 (c : Dev nD) (t : Fin cfg0.N) : (iblk m c 8 t : S128x128.Idx → _) = wW2 m c := by
  obtain ⟨h0, h1⟩ := idx_w8 t
  funext y
  show V m c main_v12 (((cfg0.win 8).blk t).view.emb y) = V m c main_v12 y
  have h : ((cfg0.win 8).blk t).view.emb y = y := by
    funext a; apply Fin.ext
    match a with
    | ⟨0, _⟩ => show win0_8.index t (0 : Fin 2) * 128 + 1 * (y 0).val = (y 0).val; omega
    | ⟨1, _⟩ => show win0_8.index t (1 : Fin 2) * 128 + 1 * (y 1).val = (y 1).val; omega
  rw [h]

theorem idx_w9 : ∀ t : Fin cfg0.N, win0_9.index t (0 : Fin 2) = 0 ∧ win0_9.index t (1 : Fin 2) = 0 :=
  (by decide +kernel : ∀ t : Fin grid0.N, _)
/-- Window 9 shows its whole array at every point. -/
theorem iblk9 (c : Dev nD) (t : Fin cfg0.N) : (iblk m c 9 t : S1x128.Idx → _) = wB1 m c := by
  obtain ⟨h0, h1⟩ := idx_w9 t
  funext y
  show V m c main_v14 (((cfg0.win 9).blk t).view.emb y) = V m c main_v14 y
  have h : ((cfg0.win 9).blk t).view.emb y = y := by
    funext a; apply Fin.ext
    match a with
    | ⟨0, _⟩ => show win0_9.index t (0 : Fin 2) * 1 + 1 * (y 0).val = (y 0).val; omega
    | ⟨1, _⟩ => show win0_9.index t (1 : Fin 2) * 128 + 1 * (y 1).val = (y 1).val; omega
  rw [h]

theorem idx_w10 : ∀ t : Fin cfg0.N, win0_10.index t (0 : Fin 2) = 0 ∧ win0_10.index t (1 : Fin 2) = 0 :=
  (by decide +kernel : ∀ t : Fin grid0.N, _)
/-- Window 10 shows its whole array at every point. -/
theorem iblk10 (c : Dev nD) (t : Fin cfg0.N) : (iblk m c 10 t : S1x128.Idx → _) = wB2 m c := by
  obtain ⟨h0, h1⟩ := idx_w10 t
  funext y
  show V m c main_v15 (((cfg0.win 10).blk t).view.emb y) = V m c main_v15 y
  have h : ((cfg0.win 10).blk t).view.emb y = y := by
    funext a; apply Fin.ext
    match a with
    | ⟨0, _⟩ => show win0_10.index t (0 : Fin 2) * 1 + 1 * (y 0).val = (y 0).val; omega
    | ⟨1, _⟩ => show win0_10.index t (1 : Fin 2) * 128 + 1 * (y 1).val = (y 1).val; omega
  rw [h]

/-! ## What a point writes back, the cover, the array after the region -/

theorem idx_w11 : ∀ t : Fin cfg0.N, win0_11.index t (0 : Fin 2) = t.val ∧ win0_11.index t (1 : Fin 2) = 0 :=
  (by decide +kernel : ∀ t : Fin grid0.N, _)

/-- Point `t` writes back block `t` of the padded output. -/
theorem flushed_eq (c : Dev nD) (t : Fin cfg0.N) :
    (dats m 0 c).flushed 11 t = ((cfg0.win 11).blk t).view.read (Elt Ideal) (padOut m c) := by
  show (cfg0.win 11).cut (grid0.coords t) ((dats m 0 c).after 11 t) = _
  rw [after0_11]
  unfold out0_11
  rw [View.canon_unit_zero hz]
  simp only [View.ld_unit_zero (S := S3072x128) hz, View.ld_unit_zero (S := S3072x1) hz, View.ld_unit_zero (S := S128x128) hz,
    View.ld_unit_zero (S := S512x128) hz, View.ld_unit_zero (S := S1x128) hz]
  funext y
  have hy0 : (y 0).val < 3072 := (y 0).isLt
  have hy1 : (y 1).val < 128 := (y 1).isLt
  obtain ⟨h0, h1⟩ := idx_w11 t
  have hx : (cfg0.win 11).xinj (grid0.coords t) y = ix2 (⟨(y 0).val, hy0⟩ : Fin 3072) (⟨(y 1).val, hy1⟩ : Fin 128) := by
    funext a
    match a with
    | ⟨0, _⟩ => rfl
    | ⟨1, _⟩ => rfl
  have he : ((cfg0.win 11).blk t).view.emb y
      = ix2 (rowOf t (⟨(y 0).val, hy0⟩ : Fin 3072)) (⟨(y 1).val, hy1⟩ : Fin 128) := by
    funext a; apply Fin.ext
    match a with
    | ⟨0, _⟩ => show win0_11.index t (0 : Fin 2) * 3072 + 1 * (y 0).val = t.val * 3072 + (y 0).val; omega
    | ⟨1, _⟩ => show win0_11.index t (1 : Fin 2) * 128 + 1 * (y 1).val = (y 1).val; omega
  show k0_pay1 (F := Ideal) (k0_pay2 (F := Ideal) (iblk m c 3 t) (iblk m c 0 t) (iblk m c 1 t) (iblk m c 2 t) (iblk m c 5 t)
      (iblk m c 6 t) (iblk m c 7 t) (iblk m c 4 t) (iblk m c 9 t)) (iblk m c 8 t) (iblk m c 10 t)
      ((cfg0.win 11).xinj (grid0.coords t) y)
    = padOut m c (((cfg0.win 11).blk t).view.emb y)
  rw [hx, he]
  generalize (⟨(y 0).val, hy0⟩ : Fin 3072) = r
  generalize (⟨(y 1).val, hy1⟩ : Fin 128) = j
  refine (payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) r j).trans ?_
  show _ = padRow m c (rowOf t r) j
  unfold padRow
  rw [iblk4, iblk5, iblk6, iblk7, iblk8, iblk9, iblk10]
  simp only [iblk0, iblk1, iblk2, iblk3]

/-- The 131 blocks tile the padded output: row `i` is in the block of point `i / 3072`. -/
theorem cover (i : S402432x128.Idx) :
    ∃ t : Fin cfg0.N, (cfg0.win 11).flush t = true ∧ i ∈ ((cfg0.win 11).blk t).view.set := by
  have hi0 : (i 0).val < 402432 := idx2_lt0 i
  have hi1 : (i 1).val < 128 := idx2_lt1 i
  have hN : grid0.N = 131 := N_0
  let t : Fin cfg0.N := ⟨(i 0).val / 3072, by show (i 0).val / 3072 < grid0.N; rw [hN]; omega⟩
  refine ⟨t, flush0_11 t, ?_⟩
  obtain ⟨h0, h1⟩ := idx_w11 t
  have ht : t.val = (i 0).val / 3072 := rfl
  show i ∈ ((View.whole main_v16).slice (win0_11.rect t)).set
  rw [View.set_slice_whole, Rect.mem_set_unit]
  intro a
  match a with
  | ⟨0, _⟩ =>
    show win0_11.index t (0 : Fin 2) * 3072 ≤ (i 0).val ∧ (i 0).val < win0_11.index t (0 : Fin 2) * 3072 + 3072
    omega
  | ⟨1, _⟩ =>
    show win0_11.index t (1 : Fin 2) * 128 ≤ (i 1).val ∧ (i 1).val < win0_11.index t (1 : Fin 2) * 128 + 128
    omega

/-- The output array after the region is the padded output. -/
theorem final (c : Dev nD) : (dats m 0 c).arrAt 11 cfg0.N = padOut m c :=
  (dats m 0 c).arrAt_eq_of_cover 11 (padOut m c) (fun t _ => flushed_eq m c t) cover

/-! ## The program's result: the first 400000 rows -/

/-- After the region the program keeps rows `0 … 399999` of the padded output: the model's output. -/
theorem result_eq (c : Dev nD) :
    Pipeline.afterTail₀ cfgs (dats m) 0 (V0 m) [hostOps1] c main_v17
      = EdgeMlp.G (aSrc m c) (aDest m c) (aEdge m c) (aU m c) (aBatch m c) (aW1 m c) (aB1 m c) (aW2 m c) (aB2 m c) := by
  unfold Pipeline.afterTail₀
  show StableHlo.after hostOps1 _ (Proc.devRef .tc main_v17) = _
  after_results
  rw [show (Pipeline.withArrays spec0 c (V0 m c) fun w => (dats m 0 c).arrAt w cfg0.N) (Proc.devRef .tc main_v16) = padOut m c from
    (Pipeline.withArrays_arr spec0 launch0.win.arr_inj c _ _ 11).trans (final m c)]
  funext i
  obtain ⟨e, j, rfl⟩ : ∃ (e : Fin 400000) (j : Fin 128), i = ix2 e j := ⟨i 0, i 1, eq_ix2 i⟩
  rw [EdgeMlp.G_ix2, ← padRow_up]
  refine (extractStridedSlice_apply _ (padOut m c) _ (ix2 e j) (ix2 (up e) j) (fun a => ?_)).trans rfl
  match a with
  | ⟨0, _⟩ => show e.val = 0 + e.val; omega
  | ⟨1, _⟩ => show j.val = 0 + j.val; omega

/-- The kernel program's run, read: its result is the model's output array of its arguments, which it leaves unchanged. -/
theorem run : θ_run defs (onTc (τ := τ) (main (F := Ideal))) ⟨m, fun _ => 0, ρ⟩ fun r => ∀ c : Dev nD,
      r.2.mem ((c : Thread nD τ).loc main_v17)
        = EdgeMlp.G (aSrc m c) (aDest m c) (aEdge m c) (aU m c) (aBatch m c) (aW1 m c) (aB1 m c) (aW2 m c) (aB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KerValue

end
-- ==== Proof.Law.lean ====
import proofs.«421708_j53970559042216_3_alg».proof.Proof.Spec

/-!
# The two sum identities that join the banded and the concatenated first layer

* a sum over the 512 columns of four rows laid side by side is the sum of the four rows' sums, each against its own
  band of the other factor (a re-indexing of `Fin 512` as `Fin 4 × Fin 128`, then associativity of `+`);
* a sum against an indicator row picks out one entry (`0 · x = 0`, `1 · x = x`: true of every extended real).
-/

noncomputable section

open scoped BigOperators

namespace EdgeMlp

/-- `Fin 512` is four bands of 128. -/
def bandEquiv : Fin 4 × Fin 128 ≃ Fin 512 where
  toFun p := band p.1 p.2
  invFun x := (⟨x.val / 128, by have := x.isLt; omega⟩, ⟨x.val % 128, Nat.mod_lt _ (by norm_num)⟩)
  left_inv p := by
    obtain ⟨q, l⟩ := p
    have hq := q.isLt; have hl := l.isLt
    refine Prod.ext (Fin.ext ?_) (Fin.ext ?_)
    · show (q.val * 128 + l.val) / 128 = q.val; omega
    · show (q.val * 128 + l.val) % 128 = l.val; omega
  right_inv x := by
    refine Fin.ext ?_
    show x.val / 128 * 128 + x.val % 128 = x.val
    omega

theorem sum_bands {M : Type*} [AddCommMonoid M] (f : Fin 512 → M) :
    ∑ x : Fin 512, f x = (((∑ l, f (band 0 l)) + ∑ l, f (band 1 l)) + ∑ l, f (band 2 l)) + ∑ l, f (band 3 l) := by
  rw [← Equiv.sum_comp bandEquiv f, Fintype.sum_prod_type, Fin.sum_univ_four]
  rfl

theorem band_val (q : Fin 4) (l : Fin 128) : (band q l).val = q.val * 128 + l.val := rfl

theorem cat4_band0 (s d g r : Fin 128 → EReal) (l : Fin 128) : cat4 s d g r (band 0 l) = s l := by
  have hl := l.isLt
  have h : (band 0 l).val = l.val := by rw [band_val]; show 0 * 128 + l.val = _; omega
  unfold cat4
  rw [dif_pos (by rw [h]; exact hl)]
  exact congrArg s (Fin.ext h)

theorem cat4_band1 (s d g r : Fin 128 → EReal) (l : Fin 128) : cat4 s d g r (band 1 l) = d l := by
  have hl := l.isLt
  have h : (band 1 l).val = 128 + l.val := by rw [band_val]; show 1 * 128 + l.val = _; omega
  unfold cat4
  rw [dif_neg (by rw [h]; omega), dif_pos (by rw [h]; omega)]
  exact congrArg d (Fin.ext (by show (band 1 l).val - 128 = l.val; rw [h]; omega))

theorem cat4_band2 (s d g r : Fin 128 → EReal) (l : Fin 128) : cat4 s d g r (band 2 l) = g l := by
  have hl := l.isLt
  have h : (band 2 l).val = 256 + l.val := by rw [band_val]; show 2 * 128 + l.val = _; omega
  unfold cat4
  rw [dif_neg (by rw [h]; omega), dif_neg (by rw [h]; omega), dif_pos (by rw [h]; omega)]
  exact congrArg g (Fin.ext (by show (band 2 l).val - 256 = l.val; rw [h]; omega))

theorem cat4_band3 (s d g r : Fin 128 → EReal) (l : Fin 128) : cat4 s d g r (band 3 l) = r l := by
  have hl := l.isLt
  have h : (band 3 l).val = 384 + l.val := by rw [band_val]; show 3 * 128 + l.val = _; omega
  unfold cat4
  rw [dif_neg (by rw [h]; omega), dif_neg (by rw [h]; omega), dif_neg (by rw [h]; omega)]
  exact congrArg r (Fin.ext (by show (band 3 l).val - 384 = l.val; rw [h]; omega))

/-- The concatenated row against a column of length 512: the four rows against the column's four bands. -/
theorem sum_cat4 (s d g r : Fin 128 → EReal) (W : Fin 512 → EReal) :
    ∑ l : Fin 512, cat4 s d g r l * W l
      = (((∑ l, s l * W (band 0 l)) + ∑ l, d l * W (band 1 l)) + ∑ l, g l * W (band 2 l)) + ∑ l, r l * W (band 3 l) := by
  rw [sum_bands]
  simp only [cat4_band0, cat4_band1, cat4_band2, cat4_band3]

/-- A sum against the indicator row of a word that is a row number picks out that row's entry. -/
theorem sum_hot (w : BitVec 32) (hw : w.toNat < 512) (T : Fin 512 → EReal) :
    ∑ q : Fin 512, hot w q * T q = T ⟨w.toNat, hw⟩ := by
  rw [Finset.sum_eq_single (⟨w.toNat, hw⟩ : Fin 512)]
  · have hself : w = BitVec.ofNat 32 w.toNat := by
      apply BitVec.eq_of_toNat_eq
      rw [BitVec.toNat_ofNat]
      exact (Nat.mod_eq_of_lt w.isLt).symm
    show (if w = BitVec.ofNat 32 w.toNat then (1 : EReal) else 0) * T ⟨w.toNat, hw⟩ = T ⟨w.toNat, hw⟩
    rw [if_pos hself, one_mul]
  · intro q _ hq
    have hne : ¬ w = BitVec.ofNat 32 q.val := by
      intro h
      apply hq
      apply Fin.ext
      have h2 := congrArg BitVec.toNat h
      rw [BitVec.toNat_ofNat, Nat.mod_eq_of_lt (by have := q.isLt; omega)] at h2
      exact h2.symm
    unfold hot
    rw [if_neg hne, zero_mul]
  · intro h; exact absurd (Finset.mem_univ _) h

/-- The concatenated first layer is the banded one, when the edge's graph id is a row number: the edge's global
    row against the fourth band is the table's entry, which the indicator row picks out. -/
theorem hiddenCat_eq_hidden (s d g : Fin 128 → EReal) (w : BitVec 32) (hw : w.toNat < 512)
    (U : Fin 512 → Fin 128 → EReal) (W : Fin 512 → Fin 128 → EReal) (b1 : Fin 128 → EReal) (k : Fin 128) :
    hiddenCat s d g (U ⟨w.toNat, hw⟩) W b1 k
      = hidden s d g w (fun q k => ∑ l : Fin 128, U q l * W (band 3 l) k)
          (fun l k => W (band 0 l) k) (fun l k => W (band 1 l) k) (fun l k => W (band 2 l) k) b1 k := by
  unfold hiddenCat hidden
  rw [sum_cat4 s d g (U ⟨w.toNat, hw⟩) (fun l => W l k),
    sum_hot w hw (fun q => ∑ l : Fin 128, U q l * W (band 3 l) k)]

end EdgeMlp

end
-- ==== Proof.RefSide.lean ====
import proofs.«421708_j53970559042216_3_alg».proof.Proof.Gen.ReferenceIdeal.Read
import proofs.«421708_j53970559042216_3_alg».proof.Proof.Law
import Idealize.ShloMosaic.Lib.StableHlo.Predicate

/-!
# The reference computes the model's function

Read one operation at a time, the reference's result at `(e, j)` is
`Σ_k max (Σ_l comb e l · W1 l k + b1 k) 0 · W2 k j + b2 j`, where `comb e` is the concatenation of the edge's three
feature rows and the gathered row of `u`. With every graph id a row number, the reference's wrap of negative ids and
the gather's clamp are both the identity, the gathered row is `u (batch e)`, and the concatenated first layer is the
banded one.
-/

noncomputable section

open scoped BigOperators
open Idealize.ShloMosaic Idealize.ShloMosaic.ValueIdx

namespace Cert.ReferenceIdeal.RefValue

open Cert.ReferenceIdeal Cert.ReferenceIdeal.Read

/-! ## The graph id as a start index

A word below 512 is not negative when read signed, so the reference's `select (id < 0) (id + 512) id` keeps it; and
read signed it is its own value, which the clamp into `[0, 511]` leaves alone. -/

/-- The wrap of a negative id leaves a row number as it is. -/
private theorem wrap_id (w : BitVec 32) (hw : w.toNat < 512) :
    Scalar.select (IntOp.cmpi .slt w 0#32) (IntOp.addi w 512#32) w = w := by
  have h0 : IntOp.cmpi .slt w 0#32 = 0#1 := by
    apply eq_zero_of_ne_one
    intro h1
    have := (StableHlo.Predicate.slt_iff_toNat (a := w) (b := 0#32) (by omega) (by decide)).mp h1
    exact Nat.not_lt_zero _ this
  rw [h0, select_zero]

/-- The clamp of a start index into `[0, 511]` leaves a row number as it is. -/
private theorem clamp_id (w : BitVec 32) (hw : w.toNat < 512) : min w.toInt.toNat 511 = w.toNat := by
  rw [StableHlo.Predicate.toInt_eq_toNat_of_lt (by omega), Int.toNat_natCast]
  exact Nat.min_eq_left (by omega)

/-- The start-index array at `(e, 0)` is the edge's graph id, when that is a row number. -/
private theorem start_at (x4 : IVec S400000 32) (e : Fin 400000) (he : (x4 (ix1 e)).toNat < 512) :
    val_main_v5 (F := Ideal) x4 (ix2 e 0) = x4 (ix1 e) := by
  have e5 : idx_main_v5 (ix2 e (0 : Fin 1)) = ix1 e :=
    funext fun a => Fin.ext (by match a with | ⟨0, _⟩ => rfl)
  rw [val_main_v5_apply, e5, val_main_v4_apply, val_main_v1_apply, val_main_v3_apply,
    val_main_v0_apply (F := Ideal), val_main_v2_apply (F := Ideal), val_main_c_apply, val_main_c_0_apply]
  exact wrap_id _ he

/-! ## The gather at an index

The operand is `[512, 128]`, the start indices `[400000, 1]`; axis 0 of the operand is collapsed and is the one the
start index names, axis 1 is the result's offset axis with the whole extent as slice size. So result element `(e, l)`
reads the operand at row `clamp (start e)` and column `l`. -/

/-- The row the gather reads for result `(e, l)`: the start index at `(e, 0)`, read signed and clamped. -/
private theorem gather_row {w : Nat} (idx : IVec S400000x1 w) (e : Fin 400000) (l : Fin 128) :
    ((gather_S512x128_S400000x1_S400000x128_1_0_n_n_0_1_1128).operandIdx (ix2 e l) idx 0).val = min (idx (ix2 e 0)).toInt.toNat 511 := by
  show (gather_S512x128_S400000x1_S400000x128_1_0_n_n_0_1_1128).start (ix2 e l) idx 0 + (gather_S512x128_S400000x1_S400000x128_1_0_n_n_0_1_1128).batchCoord (ix2 e l) 0
    + (gather_S512x128_S400000x1_S400000x128_1_0_n_n_0_1_1128).offCoord (ix2 e l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S512x128.rank) ∈ (gather_S512x128_S400000x1_S400000x128_1_0_n_n_0_1_1128).startIndexMap from List.mem_singleton.mpr rfl)]
  have hsi : (gather_S512x128_S400000x1_S400000x128_1_0_n_n_0_1_1128).siIdx (ix2 e l) ⟨List.idxOf (0 : Fin S512x128.rank) (gather_S512x128_S400000x1_S400000x128_1_0_n_n_0_1_1128).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column the gather reads for result `(e, l)`: `l` itself (no start index on that axis, offset `l`). -/
private theorem gather_col {w : Nat} (idx : IVec S400000x1 w) (e : Fin 400000) (l : Fin 128) :
    ((gather_S512x128_S400000x1_S400000x128_1_0_n_n_0_1_1128).operandIdx (ix2 e l) idx 1).val = l.val := by
  show (gather_S512x128_S400000x1_S400000x128_1_0_n_n_0_1_1128).start (ix2 e l) idx 1 + (gather_S512x128_S400000x1_S400000x128_1_0_n_n_0_1_1128).batchCoord (ix2 e l) 1
    + (gather_S512x128_S400000x1_S400000x128_1_0_n_n_0_1_1128).offCoord (ix2 e l) 1 = _
  rw [GatherDims.batchCoord_eq_zero _ _ _ List.not_mem_nil]
  unfold GatherDims.start GatherDims.offCoord
  rw [dif_neg (show ¬(1 : Fin S512x128.rank) ∈ (gather_S512x128_S400000x1_S400000x128_1_0_n_n_0_1_1128).startIndexMap by decide),
    dif_pos (show (1 : Fin S512x128.rank) ∈ (gather_S512x128_S400000x1_S400000x128_1_0_n_n_0_1_1128).sKept by decide), Nat.zero_add]
  rfl

/-- The gather read at `(e, l)`. -/
private theorem gather_at {α : Type} {w : Nat} (x : S512x128.Idx → α) (idx : IVec S400000x1 w) (e : Fin 400000)
    (l : Fin 128) :
    Host.gather gather_S512x128_S400000x1_S400000x128_1_0_n_n_0_1_1128 x idx (ix2 e l)
      = x (ix2 ⟨min (idx (ix2 e 0)).toInt.toNat 511, by omega⟩ l) := by
  unfold Host.gather
  congr 1
  funext a
  refine Fin.ext ?_
  match a with
  | ⟨0, _⟩ => exact gather_row idx e l
  | ⟨1, _⟩ => exact gather_col idx e l

/-- The gathered array at `(e, l)` is row `batch e` of the global table, when `batch e` is a row number. -/
private theorem v6_at (x3 : FVec Ideal S512x128 .f32) (x4 : IVec S400000 32) (e : Fin 400000) (l : Fin 128)
    (he : (x4 (ix1 e)).toNat < 512) :
    val_main_v6 (F := Ideal) x3 x4 (ix2 e l) = x3 (ix2 ⟨(x4 (ix1 e)).toNat, he⟩ l) := by
  unfold val_main_v6
  rw [gather_at]
  exact congrArg (fun q : Fin 512 => x3 (ix2 q l)) (Fin.ext (by
    show min (val_main_v5 (F := Ideal) x4 (ix2 e 0)).toInt.toNat 511 = (x4 (ix1 e)).toNat
    rw [start_at x4 e he]
    exact clamp_id _ he))

/-! ## The concatenation at an index

Four pieces of 128 columns each: column `l` of the result is column `l - 128·k` of piece `k`, where
`128·k ≤ l < 128·(k + 1)`. -/

/-- A row of the concatenation of four `[400000, 128]` arrays along the columns is the four rows side by side. -/
private theorem concat_at (x0 x1 x2 y3 : FVec Ideal S400000x128 .f32) (e : Fin 400000) (l : Fin 512) :
    concatenate S400000x512 1 [⟨S400000x128, x0⟩, ⟨S400000x128, x1⟩, ⟨S400000x128, x2⟩, ⟨S400000x128, y3⟩]
        Gen.concatenates_S400000x128_S400000x128_S400000x128_S400000x128_S400000x512_d1 (ix2 e l)
      = EdgeMlp.cat4 (fun l => x0 (ix2 e l)) (fun l => x1 (ix2 e l)) (fun l => x2 (ix2 e l)) (fun l => y3 (ix2 e l)) l := by
  have hl := l.isLt
  unfold EdgeMlp.cat4
  by_cases h0 : l.val < 128
  · rw [dif_pos h0]
    exact concatenate_apply_piece (1 : Fin S400000x512.rank) [⟨S400000x128, x0⟩, ⟨S400000x128, x1⟩, ⟨S400000x128, x2⟩, ⟨S400000x128, y3⟩] Gen.concatenates_S400000x128_S400000x128_S400000x128_S400000x128_S400000x512_d1 (ix2 e l) 0 (by show 0 < 4; omega) S400000x128 x0 rfl rfl 0 rfl
      (ix2 e ⟨l.val, h0⟩)
      (fun b hb => by
        match b with
        | ⟨0, _⟩ => rfl
        | ⟨1, _⟩ => exact absurd rfl hb)
      (by show 0 + l.val = l.val; omega)
  rw [dif_neg h0]
  by_cases h1 : l.val < 256
  · rw [dif_pos h1]
    exact concatenate_apply_piece (1 : Fin S400000x512.rank) [⟨S400000x128, x0⟩, ⟨S400000x128, x1⟩, ⟨S400000x128, x2⟩, ⟨S400000x128, y3⟩] Gen.concatenates_S400000x128_S400000x128_S400000x128_S400000x128_S400000x512_d1 (ix2 e l) 1 (by show 1 < 4; omega) S400000x128 x1 rfl rfl 128 rfl
      (ix2 e ⟨l.val - 128, by omega⟩)
      (fun b hb => by
        match b with
        | ⟨0, _⟩ => rfl
        | ⟨1, _⟩ => exact absurd rfl hb)
      (by show 128 + (l.val - 128) = l.val; omega)
  rw [dif_neg h1]
  by_cases h2 : l.val < 384
  · rw [dif_pos h2]
    exact concatenate_apply_piece (1 : Fin S400000x512.rank) [⟨S400000x128, x0⟩, ⟨S400000x128, x1⟩, ⟨S400000x128, x2⟩, ⟨S400000x128, y3⟩] Gen.concatenates_S400000x128_S400000x128_S400000x128_S400000x128_S400000x512_d1 (ix2 e l) 2 (by show 2 < 4; omega) S400000x128 x2 rfl rfl 256 rfl
      (ix2 e ⟨l.val - 256, by omega⟩)
      (fun b hb => by
        match b with
        | ⟨0, _⟩ => rfl
        | ⟨1, _⟩ => exact absurd rfl hb)
      (by show 256 + (l.val - 256) = l.val; omega)
  rw [dif_neg h2]
  exact concatenate_apply_piece (1 : Fin S400000x512.rank) [⟨S400000x128, x0⟩, ⟨S400000x128, x1⟩, ⟨S400000x128, x2⟩, ⟨S400000x128, y3⟩] Gen.concatenates_S400000x128_S400000x128_S400000x128_S400000x128_S400000x512_d1 (ix2 e l) 3 (by show 3 < 4; omega) S400000x128 y3 rfl rfl 384 rfl
      (ix2 e ⟨l.val - 384, by omega⟩)
      (fun b hb => by
        match b with
        | ⟨0, _⟩ => rfl
        | ⟨1, _⟩ => exact absurd rfl hb)
      (by show 384 + (l.val - 384) = l.val; omega)

/-- The concatenated array at `(e, l)`: the edge's three feature rows and row `batch e` of the global table, side by
    side. -/
private theorem v7_at (x0 x1 x2 : FVec Ideal S400000x128 .f32) (x3 : FVec Ideal S512x128 .f32) (x4 : IVec S400000 32)
    (e : Fin 400000) (l : Fin 512) (he : (x4 (ix1 e)).toNat < 512) :
    val_main_v7 (F := Ideal) x0 x1 x2 x3 x4 (ix2 e l)
      = EdgeMlp.cat4 (fun l => x0 (ix2 e l)) (fun l => x1 (ix2 e l)) (fun l => x2 (ix2 e l))
          (fun l => x3 (ix2 ⟨(x4 (ix1 e)).toNat, he⟩ l)) l := by
  unfold val_main_v7
  rw [concat_at x0 x1 x2 (val_main_v6 (F := Ideal) x3 x4) e l]
  exact congrArg (fun r => EdgeMlp.cat4 (fun l => x0 (ix2 e l)) (fun l => x1 (ix2 e l)) (fun l => x2 (ix2 e l)) r l)
    (funext fun l' => v6_at x3 x4 e l' he)

/-! ## The two biases and the rectifier's zero -/

/-- The first bias broadcast over the edges. -/
private theorem bias1_at (x6 : FVec Ideal S128 .f32) (e : Fin 400000) (k : Fin 128) :
    val_main_v10 (F := Ideal) x6 (ix2 e k) = x6 (ix1 k) := by
  rw [val_main_v10_apply, val_main_v9_apply]
  exact congrArg x6 (funext fun a => Fin.ext (by match a with | ⟨0, _⟩ => rfl))

/-- The second bias broadcast over the edges. -/
private theorem bias2_at (x8 : FVec Ideal S128 .f32) (e : Fin 400000) (j : Fin 128) :
    val_main_v15 (F := Ideal) x8 (ix2 e j) = x8 (ix1 j) := by
  rw [val_main_v15_apply, val_main_v14_apply]
  exact congrArg x8 (funext fun a => Fin.ext (by match a with | ⟨0, _⟩ => rfl))

/-- The rectifier's other operand is zero everywhere. -/
private theorem zero_at (i : S400000x128.Idx) : val_main_call0_v0 (F := Ideal) i = (0 : EReal) := by
  rw [val_main_call0_v0_apply, val_main_call0_cst_apply, Ideal.ofBits_def]
  exact Ideal.ofBits_zero_f32

/-! ## The first layer, then the whole model -/

/-- The first layer before the rectifier at `(e, k)` is the banded first layer of the specification. -/
private theorem hid_at (x0 x1 x2 : FVec Ideal S400000x128 .f32) (x3 : FVec Ideal S512x128 .f32) (x4 : IVec S400000 32)
    (x5 : FVec Ideal S512x128 .f32) (x6 : FVec Ideal S128 .f32) (h : EdgeMlp.InRange x4) (e : Fin 400000) (k : Fin 128) :
    val_main_v11 (F := Ideal) x0 x1 x2 x3 x4 x5 x6 (ix2 e k)
      = EdgeMlp.hidden (fun l => x0 (ix2 e l)) (fun l => x1 (ix2 e l)) (fun l => x2 (ix2 e l)) (x4 (ix1 e))
          (EdgeMlp.table x3 x5) (EdgeMlp.w1band x5 0) (EdgeMlp.w1band x5 1) (EdgeMlp.w1band x5 2)
          (fun k => x6 (ix1 k)) k := by
  have he : (x4 (ix1 e)).toNat < 512 := h e
  have hs : ∀ l : Fin 512,
      val_main_v7 (F := Ideal) x0 x1 x2 x3 x4 (lidx_main_v8 (ix2 e k) l) * x5 (ridx_main_v8 (ix2 e k) l)
        = EdgeMlp.cat4 (fun l => x0 (ix2 e l)) (fun l => x1 (ix2 e l)) (fun l => x2 (ix2 e l))
            (fun l => x3 (ix2 ⟨(x4 (ix1 e)).toNat, he⟩ l)) l * x5 (ix2 l k) := by
    intro l
    have el : lidx_main_v8 (ix2 e k) l = ix2 e l :=
      funext fun a => Fin.ext (by match a with | ⟨0, _⟩ => rfl | ⟨1, _⟩ => rfl)
    have er : ridx_main_v8 (ix2 e k) l = ix2 l k :=
      funext fun a => Fin.ext (by match a with | ⟨0, _⟩ => rfl | ⟨1, _⟩ => rfl)
    rw [el, er, v7_at x0 x1 x2 x3 x4 e l he]
  rw [val_main_v11_apply, Ideal.addf_def, val_main_v8_apply, bias1_at, Finset.sum_congr rfl (fun l _ => hs l)]
  exact EdgeMlp.hiddenCat_eq_hidden (fun l => x0 (ix2 e l)) (fun l => x1 (ix2 e l)) (fun l => x2 (ix2 e l))
    (x4 (ix1 e)) he (fun q l => x3 (ix2 q l)) (fun l k => x5 (ix2 l k)) (fun k => x6 (ix1 k)) k

theorem ref_eq_G (x0 x1 x2 : FVec Ideal S400000x128 .f32) (x3 : FVec Ideal S512x128 .f32) (x4 : IVec S400000 32)
    (x5 : FVec Ideal S512x128 .f32) (x6 : FVec Ideal S128 .f32) (x7 : FVec Ideal S128x128 .f32) (x8 : FVec Ideal S128 .f32)
    (h : EdgeMlp.InRange x4) :
    val_main_v16 (F := Ideal) x0 x1 x2 x3 x4 x5 x6 x7 x8 = EdgeMlp.G x0 x1 x2 x3 x4 x5 x6 x7 x8 := by
  funext i
  obtain ⟨e, j, rfl⟩ : ∃ (e : Fin 400000) (j : Fin 128), i = ix2 e j := ⟨i 0, i 1, eq_ix2 i⟩
  have hk : ∀ k : Fin 128,
      val_main_v12 (F := Ideal) x0 x1 x2 x3 x4 x5 x6 (lidx_main_v13 (ix2 e j) k) * x7 (ridx_main_v13 (ix2 e j) k)
        = max (EdgeMlp.hidden (fun l => x0 (ix2 e l)) (fun l => x1 (ix2 e l)) (fun l => x2 (ix2 e l)) (x4 (ix1 e))
            (EdgeMlp.table x3 x5) (EdgeMlp.w1band x5 0) (EdgeMlp.w1band x5 1) (EdgeMlp.w1band x5 2)
            (fun k => x6 (ix1 k)) k) 0 * x7 (ix2 k j) := by
    intro k
    have el : lidx_main_v13 (ix2 e j) k = ix2 e k :=
      funext fun a => Fin.ext (by match a with | ⟨0, _⟩ => rfl | ⟨1, _⟩ => rfl)
    have er : ridx_main_v13 (ix2 e j) k = ix2 k j :=
      funext fun a => Fin.ext (by match a with | ⟨0, _⟩ => rfl | ⟨1, _⟩ => rfl)
    rw [el, er, val_main_v12_apply, Ideal.maximumf_def, zero_at, hid_at x0 x1 x2 x3 x4 x5 x6 h e k]
  rw [EdgeMlp.G_ix2, val_main_v16_apply, Ideal.addf_def, val_main_v13_apply, bias2_at,
    Finset.sum_congr rfl (fun k _ => hk k)]
  rfl

end Cert.ReferenceIdeal.RefValue

end
-- ==== Proof.PreDecode.lean ====
import proofs.«421708_j53970559042216_3_alg».proof.Proof.Gen.Pre_finite_inputs
import proofs.«421708_j53970559042216_3_alg».proof.Proof.Spec
import Idealize.ShloMosaic.Lib.ReduceAll
import Idealize.ShloMosaic.Lib.StableHlo.Predicate

/-!
# The precondition says every graph id is a row number of the global table

The precondition is a conjunction of nine scalars; the last is "all of `0 ≤ batch ∧ batch < 512`" read signed.
A 32-bit word that is `≥ 0` and `< 512` as a signed integer has natural-number value below 512.
-/

noncomputable section

open Idealize.ShloMosaic Idealize.ShloMosaic.ValueIdx

namespace Cert.Pre_finite_inputs.Decode

open Cert.Pre_finite_inputs

/-- A 32-bit word `w` with `0 ≤ w` and `w < 512`, both read as signed integers, has unsigned value below 512.
    The signed value of `w` is its unsigned value when that is below 2³¹ and the unsigned value less 2³² otherwise;
    the second case is negative, which `0 ≤ w` excludes, and in the first case the signed bound is the unsigned one. -/
private theorem toNat_lt_of_signed (w : BitVec 32) (h0 : IntOp.cmpi .sge w 0#32 = 1#1)
    (h1 : IntOp.cmpi .slt w 512#32 = 1#1) : w.toNat < 512 := by
  have a : (0#32 : BitVec 32).toInt ≤ w.toInt := IntOp.cmpi_sge.1 h0
  have b : w.toInt < (512#32 : BitVec 32).toInt := IntOp.cmpi_slt.1 h1
  have z : (0#32 : BitVec 32).toInt = 0 := by decide
  have c : (512#32 : BitVec 32).toInt = 512 := by decide
  rw [z] at a
  rw [c] at b
  rw [BitVec.toInt_eq_toNat_cond] at a b
  have hw := w.isLt
  by_cases hc : 2 * w.toNat < 2 ^ 32
  · rw [if_pos hc] at a b; omega
  · rw [if_neg hc] at a b; omega

/-- The precondition is the conjunction `c ∧ r` of two one-bit scalars, where `c` gathers the eight finiteness tests
    and `r` is the conjunction, over all 400000 edges `e`, of the bit `(0 ≤ batch e) ∧ (batch e < 512)` (both signed,
    against the constants 0 and 512 spread over the edges). If `c ∧ r = 1` then `r = 1`; a conjunction over all edges
    that is 1 has every term 1; a term that is 1 has both comparisons 1; and then `batch e` is below 512 unsigned. -/
theorem inRange_of_pre (x0 x1 x2 : FVec Ideal S400000x128 .f32) (x3 : FVec Ideal S512x128 .f32) (x4 : IVec S400000 32)
    (x5 : FVec Ideal S512x128 .f32) (x6 : FVec Ideal S128 .f32) (x7 : FVec Ideal S128x128 .f32) (x8 : FVec Ideal S128 .f32)
    (h : fn (F := Ideal) x0 x1 x2 x3 x4 x5 x6 x7 x8 = fun _ => 1#1) : EdgeMlp.InRange x4 := by
  intro e
  show (x4 (ix1 e)).toNat < 512
  -- the scalar shape has exactly one index
  haveI : Subsingleton S_.Idx := ⟨fun a b => funext fun d => d.elim0⟩
  -- the precondition at that index, written out as the conjunction of its last two scalars
  have h0 := congrFun h ix0
  dsimp only [fn, fn_part1, fn_part2] at h0
  -- its second conjunct: the conjunction over all edges of the range bit
  have hall := (IntOp.andi_eq_one.1 h0).2
  -- hence the range bit of edge `e`
  have hbit := Host.reduce_andi_all _ _ _ _ ix0 hall (ix1 e)
  -- which is the conjunction of the two signed comparisons of `batch e` with 0 and with 512
  obtain ⟨hge, hlt⟩ := IntOp.andi_eq_one.1 hbit
  exact toNat_lt_of_signed _ hge hlt

end Cert.Pre_finite_inputs.Decode

end
-- ==== Proof.lean ====
import proofs.«421708_j53970559042216_3_alg».proof.Defs
import proofs.«421708_j53970559042216_3_alg».proof.Proof.Gen.Kernel
import proofs.«421708_j53970559042216_3_alg».proof.Proof.Gen.Kernel.Skeleton
import proofs.«421708_j53970559042216_3_alg».proof.Proof.Gen.Kernel.Launch
import proofs.«421708_j53970559042216_3_alg».proof.Proof.Gen.Kernel.Points
import proofs.«421708_j53970559042216_3_alg».proof.Proof.Gen.Kernel.Frame
import proofs.«421708_j53970559042216_3_alg».proof.Proof.Gen.KernelIdeal
import proofs.«421708_j53970559042216_3_alg».proof.Proof.Gen.KernelIdeal.Skeleton
import proofs.«421708_j53970559042216_3_alg».proof.Proof.Gen.KernelIdeal.Launch
import proofs.«421708_j53970559042216_3_alg».proof.Proof.Gen.KernelIdeal.Points
import proofs.«421708_j53970559042216_3_alg».proof.Proof.Gen.KernelIdeal.Frame
import proofs.«421708_j53970559042216_3_alg».proof.Proof.Gen.ReferenceIdeal
import proofs.«421708_j53970559042216_3_alg».proof.Proof.Gen.ReferenceIdeal.Run
import proofs.«421708_j53970559042216_3_alg».proof.Proof.Gen.ReferenceIdeal.Read
import proofs.«421708_j53970559042216_3_alg».proof.Proof.Gen.Pre_finite_inputs
import proofs.«421708_j53970559042216_3_alg».proof.Proof.KerBlocks
import proofs.«421708_j53970559042216_3_alg».proof.Proof.RefSide
import proofs.«421708_j53970559042216_3_alg».proof.Proof.PreDecode
import Idealize.ShloMosaic.Adequacy
import Idealize.ShloMosaic.Init

/-!
# The edge model's kernel computes what its reference computes

The model: for each of 400000 edges, concatenate the edge's source, destination and edge feature rows with the row
of the global table `u` its graph id selects; apply a 512 → 128 linear layer with bias, the rectifier, and a
128 → 128 linear layer with bias.

The kernel pads the edges to 131 blocks of 3072, cuts the first layer's weights into four bands of 128 rows,
multiplies `u` by the fourth band once, and per block adds to the three feature products the product of the
block's 3072 × 512 indicator matrix (entry `(r, q)` is 1 when edge `r`'s graph id is `q`) with that table.
Over the extended reals the two arrangements agree whenever every graph id is a row number of `u` (the stated
domain): a sum over 512 columns of four rows laid side by side is the sum of four sums over 128 columns, and a sum
against an indicator row picks out one entry. No finiteness of the float inputs is used.

The three frames are the generated ones (the reference's is its run with the result dropped); nothing was rewritten
by the idealization, so `preserves` is trivial.
-/

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the model's output array `EdgeMlp.G` of the (agreeing) arguments: the kernel program by
    its blocks and the host lines around them, the reference by its operations read one at a time, under the
    domain the precondition states for the graph ids. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  have hr := Cert.Pre_finite_inputs.Decode.inRange_of_pre _ _ _ _ _ _ _ _ _ (hpre c)
  obtain ⟨a0, a1, a2, a3, a4, a5, a6, a7, a8⟩ := hagree c
  rw [Cert.ReferenceIdeal.Read.val_main_v16_eq, a0, a1, a2, a3, a4, a5, a6, a7, a8]
  exact Cert.ReferenceIdeal.RefValue.ref_eq_G _ _ _ _ _ _ _ _ _ hr

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
